-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512 : Shape := ⟨2, ![4, 512]⟩
abbrev S512x32 : Shape := ⟨2, ![512, 32]⟩
abbrev S32 : Shape := ⟨1, ![32]⟩
abbrev S32x512 : Shape := ⟨2, ![32, 512]⟩
abbrev S512 : Shape := ⟨1, ![512]⟩
abbrev S1000x77x512 : Shape := ⟨3, ![1000, 77, 512]⟩
abbrev S1000 : Shape := ⟨1, ![1000]⟩
abbrev S_ : Shape := ⟨0, ![]⟩

class Facts : Prop where
  bcast_S_S4x512 : S_.BroadcastsInDim S4x512 (![] : Fin 0 → Fin S4x512.rank)
  reducesTo_S4x512_S_d0_1 : S4x512.ReducesTo [0, 1] S_
  h_S_ : 0 < S_.numel
  bcast_S_S512x32 : S_.BroadcastsInDim S512x32 (![] : Fin 0 → Fin S512x32.rank)
  reducesTo_S512x32_S_d0_1 : S512x32.ReducesTo [0, 1] S_
  bcast_S_S32 : S_.BroadcastsInDim S32 (![] : Fin 0 → Fin S32.rank)
  reducesTo_S32_S_d0 : S32.ReducesTo [0] S_
  bcast_S_S32x512 : S_.BroadcastsInDim S32x512 (![] : Fin 0 → Fin S32x512.rank)
  reducesTo_S32x512_S_d0_1 : S32x512.ReducesTo [0, 1] S_
  bcast_S_S512 : S_.BroadcastsInDim S512 (![] : Fin 0 → Fin S512.rank)
  reducesTo_S512_S_d0 : S512.ReducesTo [0] S_
  bcast_S_S1000x77x512 : S_.BroadcastsInDim S1000x77x512 (![] : Fin 0 → Fin S1000x77x512.rank)
  reducesTo_S1000x77x512_S_d0_1_2 : S1000x77x512.ReducesTo [0, 1, 2] S_

variable [Facts]

def fn_part2 {F : FTy → Type} [FloatOps F] (main_arg7 : FVec F S1000x77x512 .f32) (main_v33 : IVec S_ 1) : IVec S_ 1 :=
  let main_v34 : FVec F S1000x77x512 .f32 := Host.absf main_arg7
  let main_cst_12 : FVec F S_ .f32 := constant S_ .f32 0x7F800000#32
  let main_v35 : FVec F S1000x77x512 .f32 := broadcastInDim S1000x77x512 ![] bcast_S_S1000x77x512 main_cst_12
  let main_v36 : IVec S1000x77x512 1 := cmpf .olt main_v34 main_v35
  let main_c_13 : IVec S_ 1 := constantI S_ 1 1#1
  let main_v37 : IVec S_ 1 := (fun x v => Host.reduce IntOp.andi x v reducesTo_S1000x77x512_S_d0_1_2 h_S_) main_v36 main_c_13
  let main_v38 : IVec S_ 1 := andi main_v33 main_v37
  main_v38

def fn_part1 {F : FTy → Type} [FloatOps F] (main_arg4 : FVec F S512 .f32) (main_arg5 : FVec F S4x512 .f32) (main_arg6 : FVec F S4x512 .f32) (main_arg7 : FVec F S1000x77x512 .f32) (main_v13 : IVec S_ 1) (main_v16 : IVec S32x512 1) : IVec S_ 1 :=
  let main_c_5 : IVec S_ 1 := constantI S_ 1 1#1
  let main_v17 : IVec S_ 1 := (fun x v => Host.reduce IntOp.andi x v reducesTo_S32x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S4x512 .f32 := Host.absf main_arg5
  let main_cst_8 : FVec F S_ .f32 := constant S_ .f32 0x7F800000#32
  let main_v25 : FVec F S4x512 .f32 := broadcastInDim S4x512 ![] bcast_S_S4x512 main_cst_8
  let main_v26 : IVec S4x512 1 := cmpf .olt main_v24 main_v25
  let main_c_9 : IVec S_ 1 := constantI S_ 1 1#1
  let main_v27 : IVec S_ 1 := (fun x v => Host.reduce IntOp.andi x v reducesTo_S4x512_S_d0_1 h_S_) main_v26 main_c_9
  let main_v28 : IVec S_ 1 := andi main_v23 main_v27
  let main_v29 : FVec F S4x512 .f32 := Host.absf main_arg6
  let main_cst_10 : FVec F S_ .f32 := constant S_ .f32 0x7F800000#32
  let main_v30 : FVec F S4x512 .f32 := broadcastInDim S4x512 ![] bcast_S_S4x512 main_cst_10
  let main_v31 : IVec S4x512 1 := cmpf .olt main_v29 main_v30
  let main_c_11 : IVec S_ 1 := constantI S_ 1 1#1
  let main_v32 : IVec S_ 1 := (fun x v => Host.reduce IntOp.andi x v reducesTo_S4x512_S_d0_1 h_S_) main_v31 main_c_11
  let main_v33 : IVec S_ 1 := andi main_v28 main_v32
  fn_part2 (F := F) main_arg7 main_v33

def fn {F : FTy → Type} [FloatOps F] (main_arg0 : FVec F S4x512 .f32) (main_arg1 : FVec F S512x32 .f32) (main_arg2 : FVec F S32 .f32) (main_arg3 : FVec F S32x512 .f32) (main_arg4 : FVec F S512 .f32) (main_arg5 : FVec F S4x512 .f32) (main_arg6 : FVec F S4x512 .f32) (main_arg7 : FVec F S1000x77x512 .f32) (main_arg8 : IVec S1000 32) : IVec S_ 1 :=
  let main_v0 : FVec F S4x512 .f32 := Host.absf main_arg0
  let main_cst : FVec F S_ .f32 := constant S_ .f32 0x7F800000#32
  let main_v1 : FVec F S4x512 .f32 := broadcastInDim S4x512 ![] bcast_S_S4x512 main_cst
  let main_v2 : IVec S4x512 1 := cmpf .olt main_v0 main_v1
  let main_c : IVec S_ 1 := constantI S_ 1 1#1
  let main_v3 : IVec S_ 1 := (fun x v => Host.reduce IntOp.andi x v reducesTo_S4x512_S_d0_1 h_S_) main_v2 main_c
  let main_v4 : FVec F S512x32 .f32 := Host.absf main_arg1
  let main_cst_0 : FVec F S_ .f32 := constant S_ .f32 0x7F800000#32
  let main_v5 : FVec F S512x32 .f32 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x512 .f32 := Host.absf main_arg3
  let main_cst_4 : FVec F S_ .f32 := constant S_ .f32 0x7F800000#32
  let main_v15 : FVec F S32x512 .f32 := broadcastInDim S32x512 ![] bcast_S_S32x512 main_cst_4
  let main_v16 : IVec S32x512 1 := cmpf .olt main_v14 main_v15
  fn_part1 (F := F) main_arg4 main_arg5 main_arg6 main_arg7 main_v13 main_v16
-- ==== Kernel.lean ====
abbrev S4x512 : Shape := ⟨2, ![4, 512]⟩
abbrev S512x32 : Shape := ⟨2, ![512, 32]⟩
abbrev S32 : Shape := ⟨1, ![32]⟩
abbrev S32x512 : Shape := ⟨2, ![32, 512]⟩
abbrev S512 : Shape := ⟨1, ![512]⟩
abbrev S1000x77x512 : Shape := ⟨3, ![1000, 77, 512]⟩
abbrev S1000 : Shape := ⟨1, ![1000]⟩
abbrev S4x32 : Shape := ⟨2, ![4, 32]⟩
abbrev S1x32 : Shape := ⟨2, ![1, 32]⟩
abbrev S_ : Shape := ⟨0, ![]⟩
abbrev S1x512 : Shape := ⟨2, ![1, 512]⟩
abbrev S1x4x512 : Shape := ⟨3, ![1, 4, 512]⟩
abbrev S4x1x512 : Shape := ⟨3, ![4, 1, 512]⟩
abbrev S4x4x512 : Shape := ⟨3, ![4, 4, 512]⟩
abbrev S1000x1 : Shape := ⟨2, ![1000, 1]⟩
abbrev S1000x128 : Shape := ⟨2, ![1000, 128]⟩
abbrev S4x1000x77x512 : Shape := ⟨4, ![4, 1000, 77, 512]⟩
abbrev S40x77x256 : Shape := ⟨3, ![40, 77, 256]⟩
abbrev S1x4x256 : Shape := ⟨3, ![1, 4, 256]⟩
abbrev S40x128 : Shape := ⟨2, ![40, 128]⟩
abbrev S1x40x77x256 : Shape := ⟨4, ![1, 40, 77, 256]⟩
abbrev S4x256 : Shape := ⟨2, ![4, 256]⟩
abbrev S40x4x256 : Shape := ⟨3, ![40, 4, 256]⟩
abbrev S1x40x4x256 : Shape := ⟨4, ![1, 40, 4, 256]⟩
abbrev S40x77 : Shape := ⟨2, ![40, 77]⟩
abbrev S40x1 : Shape := ⟨2, ![40, 1]⟩
abbrev S1x1x256 : Shape := ⟨3, ![1, 1, 256]⟩
abbrev S256 : Shape := ⟨1, ![256]⟩
abbrev S40x77x1 : Shape := ⟨3, ![40, 77, 1]⟩

abbrev nBuf : Space → Nat
  | .hbm => 33
  | .vmem => 10
  | .smem => 0
  | _ => 0

abbrev bufTy : (tb : Table) → Fin (tcTables nBuf tb) → BufTy
  | .hbm, ⟨0, _⟩ => ⟨S4x512, .f32⟩
  | .hbm, ⟨1, _⟩ => ⟨S512x32, .f32⟩
  | .hbm, ⟨2, _⟩ => ⟨S32, .f32⟩
  | .hbm, ⟨3, _⟩ => ⟨S32x512, .f32⟩
  | .hbm, ⟨4, _⟩ => ⟨S512, .f32⟩
  | .hbm, ⟨5, _⟩ => ⟨S4x512, .f32⟩
  | .hbm, ⟨6, _⟩ => ⟨S4x512, .f32⟩
  | .hbm, ⟨7, _⟩ => ⟨S1000x77x512, .f32⟩
  | .hbm, ⟨8, _⟩ => ⟨S1000, .i32⟩
  | .hbm, ⟨9, _⟩ => ⟨S4x32, .f32⟩
  | .hbm, ⟨10, _⟩ => ⟨S1x32, .f32⟩
  | .hbm, ⟨11, _⟩ => ⟨S4x32, .f32⟩
  | .hbm, ⟨12, _⟩ => ⟨S4x32, .f32⟩
  | .hbm, ⟨13, _⟩ => ⟨S_, .f32⟩
  | .hbm, ⟨14, _⟩ => ⟨S4x32, .f32⟩
  | .hbm, ⟨15, _⟩ => ⟨S4x32, .f32⟩
  | .hbm, ⟨16, _⟩ => ⟨S4x512, .f32⟩
  | .hbm, ⟨17, _⟩ => ⟨S1x512, .f32⟩
  | .hbm, ⟨18, _⟩ => ⟨S4x512, .f32⟩
  | .hbm, ⟨19, _⟩ => ⟨S4x512, .f32⟩
  | .hbm, ⟨20, _⟩ => ⟨S1x4x512, .f32⟩
  | .hbm, ⟨21, _⟩ => ⟨S4x1x512, .f32⟩
  | .hbm, ⟨22, _⟩ => ⟨S4x4x512, .f32⟩
  | .hbm, ⟨23, _⟩ => ⟨S4x4x512, .f32⟩
  | .hbm, ⟨24, _⟩ => ⟨S4x4x512, .f32⟩
  | .hbm, ⟨25, _⟩ => ⟨S1x4x512, .f32⟩
  | .hbm, ⟨26, _⟩ => ⟨S4x1x512, .f32⟩
  | .hbm, ⟨27, _⟩ => ⟨S4x4x512, .f32⟩
  | .hbm, ⟨28, _⟩ => ⟨S4x4x512, .f32⟩
  | .hbm, ⟨29, _⟩ => ⟨S4x4x512, .f32⟩
  | .hbm, ⟨30, _⟩ => ⟨S1000x1, .i32⟩
  | .hbm, ⟨31, _⟩ => ⟨S1000x128, .i32⟩
  | .hbm, ⟨32, _⟩ => ⟨S4x1000x77x512, .f32⟩
  | .local _ .vmem, ⟨0, _⟩ => ⟨S40x77x256, .f32⟩
  | .local _ .vmem, ⟨1, _⟩ => ⟨S40x77x256, .f32⟩
  | .local _ .vmem, ⟨2, _⟩ => ⟨S1x4x256, .f32⟩
  | .local _ .vmem, ⟨3, _⟩ => ⟨S1x4x256, .f32⟩
  | .local _ .vmem, ⟨4, _⟩ => ⟨S1x4x256, .f32⟩
  | .local _ .vmem, ⟨5, _⟩ => ⟨S1x4x256, .f32⟩
  | .local _ .vmem, ⟨6, _⟩ => ⟨S40x128, .i32⟩
  | .local _ .vmem, ⟨7, _⟩ => ⟨S40x128, .i32⟩
  | .local _ .vmem, ⟨8, _⟩ => ⟨S1x40x77x256, .f32⟩
  | .local _ .vmem, ⟨9, _⟩ => ⟨S1x40x77x256, .f32⟩
  | _, _ => ⟨S4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![25, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat, arg1.toNat]

abbrev stage0_0 : Fin 2 → Memref sig .tc .vmem S40x77x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x4x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S40x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x40x77x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  bcast_S32_S1x32_1 : S32.BroadcastsInDim S1x32 (![1] : Fin 1 → Fin S1x32.rank)
  bcast_S1x32_S4x32_0_1 : S1x32.BroadcastsInDim S4x32 (![0, 1] : Fin 2 → Fin S4x32.rank)
  bcast_S_S4x32 : S_.BroadcastsInDim S4x32 (![] : Fin 0 → Fin S4x32.rank)
  bcast_S512_S1x512_1 : S512.BroadcastsInDim S1x512 (![1] : Fin 1 → Fin S1x512.rank)
  bcast_S1x512_S4x512_0_1 : S1x512.BroadcastsInDim S4x512 (![0, 1] : Fin 2 → Fin S4x512.rank)
  bcast_S4x512_S1x4x512_1_2 : S4x512.BroadcastsInDim S1x4x512 (![1, 2] : Fin 2 → Fin S1x4x512.rank)
  bcast_S4x512_S4x1x512_0_2 : S4x512.BroadcastsInDim S4x1x512 (![0, 2] : Fin 2 → Fin S4x1x512.rank)
  bcast_S1x4x512_S4x4x512_0_1_2 : S1x4x512.BroadcastsInDim S4x4x512 (![0, 1, 2] : Fin 3 → Fin S4x4x512.rank)
  bcast_S4x1x512_S4x4x512_0_1_2 : S4x1x512.BroadcastsInDim S4x4x512 (![0, 1, 2] : Fin 3 → Fin S4x4x512.rank)
  bcast_S1000_S1000x1_0 : S1000.BroadcastsInDim S1000x1 (![0] : Fin 1 → Fin S1000x1.rank)
  bcast_S1000x1_S1000x128_0_1 : S1000x1.BroadcastsInDim S1000x128 (![0, 1] : Fin 2 → Fin S1000x128.rank)
  inb_S40x77x256_S40x77x256_0_0_0 : ∀ a, (![0, 0, 0] : Fin 3 → Nat) a + S40x77x256.size a ≤ S40x77x256.size a
  h_S40x77x256 : 0 < S40x77x256.numel
  inb_S1x40x77x256_S1x40x77x256_0_0_0_0 : ∀ a, (![0, 0, 0, 0] : Fin 4 → Nat) a + S1x40x77x256.size a ≤ S1x40x77x256.size a
  h_S1x40x77x256 : 0 < S1x40x77x256.numel
  shapeCasts_S1x40x77x256_S40x77x256 : S1x40x77x256.ShapeCasts S40x77x256
  shapeCasts_S40x77x256_S1x40x77x256 : S40x77x256.ShapeCasts S1x40x77x256
  inb_S1x4x256_S1x4x256_0_0_0 : ∀ a, (![0, 0, 0] : Fin 3 → Nat) a + S1x4x256.size a ≤ S1x4x256.size a
  h_S1x4x256 : 0 < S1x4x256.numel
  shapeCasts_S1x4x256_S4x256 : S1x4x256.ShapeCasts S4x256
  shapeCasts_S4x256_S1x4x256 : S4x256.ShapeCasts S1x4x256
  shapeCasts_S1x4x256_S1x4x256 : S1x4x256.ShapeCasts S1x4x256
  broadcasts_S1x4x256_S40x4x256 : S1x4x256.Broadcasts S40x4x256
  inb_S1x40x77x256_S1x40x4x256_0_0_1_0 : ∀ a, (![0, 0, 1, 0] : Fin 4 → Nat) a + S1x40x4x256.size a ≤ S1x40x77x256.size a
  h_S1x40x4x256 : 0 < S1x40x4x256.numel
  shapeCasts_S1x40x4x256_S40x4x256 : S1x40x4x256.ShapeCasts S40x4x256
  shapeCasts_S40x4x256_S1x40x4x256 : S40x4x256.ShapeCasts S1x40x4x256
  iota_S40x77_d1_w32 : S40x77.Iotas .tc 32 [1]
  inb_S40x128_S40x1_0_0 : ∀ a, (![0, 0] : Fin 2 → Nat) a + S40x1.size a ≤ S40x128.size a
  h_S40x1 : 0 < S40x1.numel
  shapeCasts_S40x1_S40x1 : S40x1.ShapeCasts S40x1
  broadcasts_S40x1_S40x77 : S40x1.Broadcasts S40x77
  inb_S1x4x256_S1x1x256_0_0_0 : ∀ a, (![0, 0, 0] : Fin 3 → Nat) a + S1x1x256.size a ≤ S1x4x256.size a
  h_S1x1x256 : 0 < S1x1x256.numel
  shapeCasts_S1x1x256_S256 : S1x1x256.ShapeCasts S256
  shapeCasts_S256_S1x1x256 : S256.ShapeCasts S1x1x256
  shapeCasts_S1x1x256_S1x1x256 : S1x1x256.ShapeCasts S1x1x256
  broadcasts_S1x1x256_S40x77x256 : S1x1x256.Broadcasts S40x77x256
  natLt_1_32 : 1 < 32
  shapeCasts_S40x77_S40x77x1 : S40x77.ShapeCasts S40x77x1
  broadcasts_S40x77x1_S40x77x256 : S40x77x1.Broadcasts S40x77x256
  inb_S1x4x256_S1x1x256_0_1_0 : ∀ a, (![0, 1, 0] : Fin 3 → Nat) a + S1x1x256.size a ≤ S1x4x256.size a
  inb_S1x4x256_S1x1x256_0_2_0 : ∀ a, (![0, 2, 0] : Fin 3 → Nat) a + S1x1x256.size a ≤ S1x4x256.size a
  inb_S1x4x256_S1x1x256_0_3_0 : ∀ a, (![0, 3, 0] : Fin 3 → Nat) a + S1x1x256.size a ≤ S1x4x256.size a
  dot_S4x512_S512x32_S4x32_1_0_0_1_n_n_wf : DotDims.WF S4x512 S512x32 S4x32 [1] [0] [0] [1] [] []
  dot_S4x32_S32x512_S4x512_1_0_0_1_n_n_wf : DotDims.WF S4x32 S32x512 S4x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S40x77x256.size a ≤ S1000x77x512.size a
  hwx0_0 : ∀ i : grid0.Coords, EltTy.bits .f32 = 32 ∨ (Rect.block (s := S1000x77x512) S40x77x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x256.size a ≤ S4x4x512.size a
  hwx0_1 : ∀ i : grid0.Coords, EltTy.bits .f32 = 32 ∨ (Rect.block (s := S4x4x512) S1x4x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x256.size a ≤ S4x4x512.size a
  hwx0_2 : ∀ i : grid0.Coords, EltTy.bits .f32 = 32 ∨ (Rect.block (s := S4x4x512) S1x4x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S40x128.size a ≤ S1000x128.size a
  hwx0_3 : ∀ i : grid0.Coords, EltTy.bits .i32 = 32 ∨ (Rect.block (s := S1000x128) S40x128.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x40x77x256.size a ≤ S4x1000x77x512.size a
  hwx0_4 : ∀ i : grid0.Coords, EltTy.bits .f32 = 32 ∨ (Rect.block (s := S4x1000x77x512) S1x40x77x256.size (cc0_transform_4 i) (hinb0_4 i)).WholeWords (EltTy.packing .f32)

variable [Facts₀]

def dot_S4x512_S512x32_S4x32_1_0_0_1_n_n : DotDims S4x512 S512x32 S4x32 where
  lhsContracting := [1]
  rhsContracting := [0]
  lhsNonContracting := [0]
  rhsNonContracting := [1]
  lhsBatch := []
  rhsBatch := []
  wf := dot_S4x512_S512x32_S4x32_1_0_0_1_n_n_wf
def dot_S4x32_S32x512_S4x512_1_0_0_1_n_n : DotDims S4x32 S32x512 S4x512 where
  lhsContracting := [1]
  rhsContracting := [0]
  lhsNonContracting := [0]
  rhsNonContracting := [1]
  lhsBatch := []
  rhsBatch := []
  wf := dot_S4x32_S32x512_S4x512_1_0_0_1_n_n_wf

abbrev win0_0 : Pipeline.Window sig grid0 :=
  Pipeline.Window.ofSpec (Memref.whole main_arg7) S40x77x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1x4x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x4x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S40x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x40x77x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x512 : Shape := ⟨2, ![4, 512]⟩
abbrev S512x32 : Shape := ⟨2, ![512, 32]⟩
abbrev S32 : Shape := ⟨1, ![32]⟩
abbrev S32x512 : Shape := ⟨2, ![32, 512]⟩
abbrev S512 : Shape := ⟨1, ![512]⟩
abbrev S1000x77x512 : Shape := ⟨3, ![1000, 77, 512]⟩
abbrev S1000 : Shape := ⟨1, ![1000]⟩
abbrev S4x32 : Shape := ⟨2, ![4, 32]⟩
abbrev S1x32 : Shape := ⟨2, ![1, 32]⟩
abbrev S_ : Shape := ⟨0, ![]⟩
abbrev S1x512 : Shape := ⟨2, ![1, 512]⟩
abbrev S77 : Shape := ⟨1, ![77]⟩
abbrev S1x4x512 : Shape := ⟨3, ![1, 4, 512]⟩
abbrev S4x1x512 : Shape := ⟨3, ![4, 1, 512]⟩
abbrev S4x4x512 : Shape := ⟨3, ![4, 4, 512]⟩
abbrev S77x1 : Shape := ⟨2, ![77, 1]⟩
abbrev S4x77x512 : Shape := ⟨3, ![4, 77, 512]⟩
abbrev S1x77 : Shape := ⟨2, ![1, 77]⟩
abbrev S1000x1 : Shape := ⟨2, ![1000, 1]⟩
abbrev S1000x77 : Shape := ⟨2, ![1000, 77]⟩
abbrev S1000x77x1 : Shape := ⟨3, ![1000, 77, 1]⟩
abbrev S4x1000x77x512 : Shape := ⟨4, ![4, 1000, 77, 512]⟩
abbrev S1x1x77x1 : Shape := ⟨4, ![1, 1, 77, 1]⟩
abbrev S4x1x77x512 : Shape := ⟨4, ![4, 1, 77, 512]⟩
abbrev S1x1000x77x512 : Shape := ⟨4, ![1, 1000, 77, 512]⟩
abbrev S1x1000x77x1 : Shape := ⟨4, ![1, 1000, 77, 1]⟩

abbrev nBuf : Space → Nat
  | .hbm => 107
  | .vmem => 0
  | .smem => 0
  | _ => 0

abbrev bufTy : (tb : Table) → Fin (tcTables nBuf tb) → BufTy
  | .hbm, ⟨0, _⟩ => ⟨S4x512, .f32⟩
  | .hbm, ⟨1, _⟩ => ⟨S512x32, .f32⟩
  | .hbm, ⟨2, _⟩ => ⟨S32, .f32⟩
  | .hbm, ⟨3, _⟩ => ⟨S32x512, .f32⟩
  | .hbm, ⟨4, _⟩ => ⟨S512, .f32⟩
  | .hbm, ⟨5, _⟩ => ⟨S4x512, .f32⟩
  | .hbm, ⟨6, _⟩ => ⟨S4x512, .f32⟩
  | .hbm, ⟨7, _⟩ => ⟨S1000x77x512, .f32⟩
  | .hbm, ⟨8, _⟩ => ⟨S1000, .i32⟩
  | .hbm, ⟨9, _⟩ => ⟨S4x32, .f32⟩
  | .hbm, ⟨10, _⟩ => ⟨S1x32, .f32⟩
  | .hbm, ⟨11, _⟩ => ⟨S4x32, .f32⟩
  | .hbm, ⟨12, _⟩ => ⟨S4x32, .f32⟩
  | .hbm, ⟨13, _⟩ => ⟨S_, .f32⟩
  | .hbm, ⟨14, _⟩ => ⟨S4x32, .f32⟩
  | .hbm, ⟨15, _⟩ => ⟨S4x32, .f32⟩
  | .hbm, ⟨16, _⟩ => ⟨S4x512, .f32⟩
  | .hbm, ⟨17, _⟩ => ⟨S1x512, .f32⟩
  | .hbm, ⟨18, _⟩ => ⟨S4x512, .f32⟩
  | .hbm, ⟨19, _⟩ => ⟨S4x512, .f32⟩
  | .hbm, ⟨20, _⟩ => ⟨S77, .i32⟩
  | .hbm, ⟨21, _⟩ => ⟨S1x4x512, .f32⟩
  | .hbm, ⟨22, _⟩ => ⟨S4x1x512, .f32⟩
  | .hbm, ⟨23, _⟩ => ⟨S4x4x512, .f32⟩
  | .hbm, ⟨24, _⟩ => ⟨S4x4x512, .f32⟩
  | .hbm, ⟨25, _⟩ => ⟨S4x4x512, .f32⟩
  | .hbm, ⟨26, _⟩ => ⟨S1x4x512, .f32⟩
  | .hbm, ⟨27, _⟩ => ⟨S4x1x512, .f32⟩
  | .hbm, ⟨28, _⟩ => ⟨S4x4x512, .f32⟩
  | .hbm, ⟨29, _⟩ => ⟨S4x4x512, .f32⟩
  | .hbm, ⟨30, _⟩ => ⟨S4x4x512, .f32⟩
  | .hbm, ⟨31, _⟩ => ⟨S_, .i32⟩
  | .hbm, ⟨32, _⟩ => ⟨S77, .i32⟩
  | .hbm, ⟨33, _⟩ => ⟨S77, .i1⟩
  | .hbm, ⟨34, _⟩ => ⟨S_, .i32⟩
  | .hbm, ⟨35, _⟩ => ⟨S77, .i32⟩
  | .hbm, ⟨36, _⟩ => ⟨S77, .i1⟩
  | .hbm, ⟨37, _⟩ => ⟨S77, .i1⟩
  | .hbm, ⟨38, _⟩ => ⟨S_, .i32⟩
  | .hbm, ⟨39, _⟩ => ⟨S77, .i32⟩
  | .hbm, ⟨40, _⟩ => ⟨S77, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S77, .i32⟩
  | .hbm, ⟨45, _⟩ => ⟨S77, .i32⟩
  | .hbm, ⟨46, _⟩ => ⟨S_, .i32⟩
  | .hbm, ⟨47, _⟩ => ⟨S77, .i32⟩
  | .hbm, ⟨48, _⟩ => ⟨S77, .i32⟩
  | .hbm, ⟨49, _⟩ => ⟨S_, .i32⟩
  | .hbm, ⟨50, _⟩ => ⟨S77, .i32⟩
  | .hbm, ⟨51, _⟩ => ⟨S77, .i1⟩
  | .hbm, ⟨52, _⟩ => ⟨S_, .i32⟩
  | .hbm, ⟨53, _⟩ => ⟨S77, .i32⟩
  | .hbm, ⟨54, _⟩ => ⟨S77, .i32⟩
  | .hbm, ⟨55, _⟩ => ⟨S77, .i32⟩
  | .hbm, ⟨56, _⟩ => ⟨S77x1, .i32⟩
  | .hbm, ⟨57, _⟩ => ⟨S4x77x512, .f32⟩
  | .hbm, ⟨58, _⟩ => ⟨S_, .i32⟩
  | .hbm, ⟨59, _⟩ => ⟨S1000, .i32⟩
  | .hbm, ⟨60, _⟩ => ⟨S1000, .i32⟩
  | .hbm, ⟨61, _⟩ => ⟨S1x77, .i32⟩
  | .hbm, ⟨62, _⟩ => ⟨S1000x1, .i32⟩
  | .hbm, ⟨63, _⟩ => ⟨S1000x77, .i32⟩
  | .hbm, ⟨64, _⟩ => ⟨S1000x77, .i32⟩
  | .hbm, ⟨65, _⟩ => ⟨S1000x77, .i1⟩
  | .hbm, ⟨66, _⟩ => ⟨S1x77, .i32⟩
  | .hbm, ⟨67, _⟩ => ⟨S_, .i32⟩
  | .hbm, ⟨68, _⟩ => ⟨S1000, .i32⟩
  | .hbm, ⟨69, _⟩ => ⟨S1000, .i32⟩
  | .hbm, ⟨70, _⟩ => ⟨S1000x1, .i32⟩
  | .hbm, ⟨71, _⟩ => ⟨S1000x77, .i32⟩
  | .hbm, ⟨72, _⟩ => ⟨S1000x77, .i32⟩
  | .hbm, ⟨73, _⟩ => ⟨S1000x77, .i1⟩
  | .hbm, ⟨74, _⟩ => ⟨S1000x77, .i1⟩
  | .hbm, ⟨75, _⟩ => ⟨S1x77, .i32⟩
  | .hbm, ⟨76, _⟩ => ⟨S1000x1, .i32⟩
  | .hbm, ⟨77, _⟩ => ⟨S1000x77, .i32⟩
  | .hbm, ⟨78, _⟩ => ⟨S1000x77, .i32⟩
  | .hbm, ⟨79, _⟩ => ⟨S1000x77, .i32⟩
  | .hbm, ⟨80, _⟩ => ⟨S_, .i32⟩
  | .hbm, ⟨81, _⟩ => ⟨S_, .i32⟩
  | .hbm, ⟨82, _⟩ => ⟨S_, .i32⟩
  | .hbm, ⟨83, _⟩ => ⟨S1000x77, .i32⟩
  | .hbm, ⟨84, _⟩ => ⟨S1000x77, .i32⟩
  | .hbm, ⟨85, _⟩ => ⟨S_, .i32⟩
  | .hbm, ⟨86, _⟩ => ⟨S1000x77, .i32⟩
  | .hbm, ⟨87, _⟩ => ⟨S1000x77, .i32⟩
  | .hbm, ⟨88, _⟩ => ⟨S_, .i32⟩
  | .hbm, ⟨89, _⟩ => ⟨S1000x77, .i32⟩
  | .hbm, ⟨90, _⟩ => ⟨S1000x77, .i1⟩
  | .hbm, ⟨91, _⟩ => ⟨S_, .i32⟩
  | .hbm, ⟨92, _⟩ => ⟨S1000x77, .i32⟩
  | .hbm, ⟨93, _⟩ => ⟨S1000x77, .i32⟩
  | .hbm, ⟨94, _⟩ => ⟨S1000x77, .i32⟩
  | .hbm, ⟨95, _⟩ => ⟨S1000x77x1, .i32⟩
  | .hbm, ⟨96, _⟩ => ⟨S4x1000x77x512, .f32⟩
  | .hbm, ⟨97, _⟩ => ⟨S1x1x77x1, .i1⟩
  | .hbm, ⟨98, _⟩ => ⟨S4x1x77x512, .f32⟩
  | .hbm, ⟨99, _⟩ => ⟨S1x1000x77x512, .f32⟩
  | .hbm, ⟨100, _⟩ => ⟨S4x1000x77x512, .i1⟩
  | .hbm, ⟨101, _⟩ => ⟨S4x1000x77x512, .f32⟩
  | .hbm, ⟨102, _⟩ => ⟨S4x1000x77x512, .f32⟩
  | .hbm, ⟨103, _⟩ => ⟨S4x1000x77x512, .f32⟩
  | .hbm, ⟨104, _⟩ => ⟨S1x1000x77x1, .i1⟩
  | .hbm, ⟨105, _⟩ => ⟨S4x1000x77x512, .i1⟩
  | .hbm, ⟨106, _⟩ => ⟨S4x1000x77x512, .f32⟩
  | _, _ => ⟨S4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_v21 : Ref sig .tc := ⟨.hbm, 32, rfl⟩
abbrev main_v22 : Ref sig .tc := ⟨.hbm, 33, rfl⟩
abbrev main_c_0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_1 : Ref sig .tc := ⟨.hbm, 38, rfl⟩
abbrev main_v26 : Ref sig .tc := ⟨.hbm, 39, rfl⟩
abbrev main_v27 : Ref sig .tc := ⟨.hbm, 40, rfl⟩
abbrev main_c_2 : Ref sig .tc := ⟨.hbm, 41, rfl⟩
abbrev main_c_3 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_v28 : Ref sig .tc := ⟨.hbm, 48, rfl⟩
abbrev main_c_4 : Ref sig .tc := ⟨.hbm, 49, rfl⟩
abbrev main_v29 : Ref sig .tc := ⟨.hbm, 50, rfl⟩
abbrev main_v30 : Ref sig .tc := ⟨.hbm, 51, rfl⟩
abbrev main_c_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_6 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_7 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_8 : Ref sig .tc := ⟨.hbm, 80, rfl⟩
abbrev main_c_9 : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_v56 : Ref sig .tc := ⟨.hbm, 87, rfl⟩
abbrev main_c_10 : Ref sig .tc := ⟨.hbm, 88, rfl⟩
abbrev main_v57 : Ref sig .tc := ⟨.hbm, 89, rfl⟩
abbrev main_v58 : Ref sig .tc := ⟨.hbm, 90, rfl⟩
abbrev main_c_11 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_call2_v0 : Ref sig .tc := ⟨.hbm, 100, rfl⟩
abbrev main_call2_v1 : Ref sig .tc := ⟨.hbm, 101, rfl⟩
abbrev main_call2_v2 : Ref sig .tc := ⟨.hbm, 102, rfl⟩
abbrev main_v67 : Ref sig .tc := ⟨.hbm, 103, rfl⟩
abbrev main_v68 : Ref sig .tc := ⟨.hbm, 104, rfl⟩
abbrev main_call3_v0 : Ref sig .tc := ⟨.hbm, 105, rfl⟩
abbrev main_v69 : Ref sig .tc := ⟨.hbm, 106, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S4x32_0_1 : S1x32.BroadcastsInDim S4x32 (![0, 1] : Fin 2 → Fin S4x32.rank)
  bcast_S_S4x32 : S_.BroadcastsInDim S4x32 (![] : Fin 0 → Fin S4x32.rank)
  bcast_S512_S1x512_1 : S512.BroadcastsInDim S1x512 (![1] : Fin 1 → Fin S1x512.rank)
  bcast_S1x512_S4x512_0_1 : S1x512.BroadcastsInDim S4x512 (![0, 1] : Fin 2 → Fin S4x512.rank)
  bcast_S4x512_S1x4x512_1_2 : S4x512.BroadcastsInDim S1x4x512 (![1, 2] : Fin 2 → Fin S1x4x512.rank)
  bcast_S4x512_S4x1x512_0_2 : S4x512.BroadcastsInDim S4x1x512 (![0, 2] : Fin 2 → Fin S4x1x512.rank)
  bcast_S1x4x512_S4x4x512_0_1_2 : S1x4x512.BroadcastsInDim S4x4x512 (![0, 1, 2] : Fin 3 → Fin S4x4x512.rank)
  bcast_S4x1x512_S4x4x512_0_1_2 : S4x1x512.BroadcastsInDim S4x4x512 (![0, 1, 2] : Fin 3 → Fin S4x4x512.rank)
  bcast_S_S77 : S_.BroadcastsInDim S77 (![] : Fin 0 → Fin S77.rank)
  bcast_S77_S77x1_0 : S77.BroadcastsInDim S77x1 (![0] : Fin 1 → Fin S77x1.rank)
  bcast_S_S1000 : S_.BroadcastsInDim S1000 (![] : Fin 0 → Fin S1000.rank)
  bcast_S77_S1x77_1 : S77.BroadcastsInDim S1x77 (![1] : Fin 1 → Fin S1x77.rank)
  bcast_S1000_S1000x1_0 : S1000.BroadcastsInDim S1000x1 (![0] : Fin 1 → Fin S1000x1.rank)
  bcast_S1x77_S1000x77_0_1 : S1x77.BroadcastsInDim S1000x77 (![0, 1] : Fin 2 → Fin S1000x77.rank)
  bcast_S1000x1_S1000x77_0_1 : S1000x1.BroadcastsInDim S1000x77 (![0, 1] : Fin 2 → Fin S1000x77.rank)
  bcast_S_S1000x77 : S_.BroadcastsInDim S1000x77 (![] : Fin 0 → Fin S1000x77.rank)
  bcast_S1000x77_S1000x77x1_0_1 : S1000x77.BroadcastsInDim S1000x77x1 (![0, 1] : Fin 2 → Fin S1000x77x1.rank)
  bcast_S77_S1x1x77x1_2 : S77.BroadcastsInDim S1x1x77x1 (![2] : Fin 1 → Fin S1x1x77x1.rank)
  bcast_S4x77x512_S4x1x77x512_0_2_3 : S4x77x512.BroadcastsInDim S4x1x77x512 (![0, 2, 3] : Fin 3 → Fin S4x1x77x512.rank)
  bcast_S1000x77x512_S1x1000x77x512_1_2_3 : S1000x77x512.BroadcastsInDim S1x1000x77x512 (![1, 2, 3] : Fin 3 → Fin S1x1000x77x512.rank)
  bcast_S1x1x77x1_S4x1000x77x512_0_1_2_3 : S1x1x77x1.BroadcastsInDim S4x1000x77x512 (![0, 1, 2, 3] : Fin 4 → Fin S4x1000x77x512.rank)
  bcast_S4x1x77x512_S4x1000x77x512_0_1_2_3 : S4x1x77x512.BroadcastsInDim S4x1000x77x512 (![0, 1, 2, 3] : Fin 4 → Fin S4x1000x77x512.rank)
  bcast_S1x1000x77x512_S4x1000x77x512_0_1_2_3 : S1x1000x77x512.BroadcastsInDim S4x1000x77x512 (![0, 1, 2, 3] : Fin 4 → Fin S4x1000x77x512.rank)
  bcast_S1000x77_S1x1000x77x1_1_2 : S1000x77.BroadcastsInDim S1x1000x77x1 (![1, 2] : Fin 2 → Fin S1x1000x77x1.rank)
  bcast_S1x1000x77x1_S4x1000x77x512_0_1_2_3 : S1x1000x77x1.BroadcastsInDim S4x1000x77x512 (![0, 1, 2, 3] : Fin 4 → Fin S4x1000x77x512.rank)
  dot_S4x512_S512x32_S4x32_1_0_0_1_n_n_wf : DotDims.WF S4x512 S512x32 S4x32 [1] [0] [0] [1] [] []
  dot_S4x32_S32x512_S4x512_1_0_0_1_n_n_wf : DotDims.WF S4x32 S32x512 S4x512 [1] [0] [0] [1] [] []
  gather_S4x4x512_S77x1_S4x77x512_02_1_n_n_1_1_41512_wf : GatherDims.WF S4x4x512 S77x1 S4x77x512 [0, 2] [1] [] [1] [] 1 ![4, 1, 512]
  gather_S4x4x512_S1000x77x1_S4x1000x77x512_03_1_n_n_1_2_41512_wf : GatherDims.WF S4x4x512 S1000x77x1 S4x1000x77x512 [0, 3] [1] [] [1] [] 2 ![4, 1, 512]

variable [Facts₀]

def dot_S4x512_S512x32_S4x32_1_0_0_1_n_n : DotDims S4x512 S512x32 S4x32 where
  lhsContracting := [1]
  rhsContracting := [0]
  lhsNonContracting := [0]
  rhsNonContracting := [1]
  lhsBatch := []
  rhsBatch := []
  wf := dot_S4x512_S512x32_S4x32_1_0_0_1_n_n_wf
def dot_S4x32_S32x512_S4x512_1_0_0_1_n_n : DotDims S4x32 S32x512 S4x512 where
  lhsContracting := [1]
  rhsContracting := [0]
  lhsNonContracting := [0]
  rhsNonContracting := [1]
  lhsBatch := []
  rhsBatch := []
  wf := dot_S4x32_S32x512_S4x512_1_0_0_1_n_n_wf
def gather_S4x4x512_S77x1_S4x77x512_02_1_n_n_1_1_41512 : GatherDims S4x4x512 S77x1 S4x77x512 where
  offsetDims := [0, 2]
  collapsedSliceDims := [1]
  operandBatchingDims := []
  startIndicesBatchingDims := []
  startIndexMap := [1]
  indexVectorDim := 1
  sliceSizes := ![4, 1, 512]
  wf := gather_S4x4x512_S77x1_S4x77x512_02_1_n_n_1_1_41512_wf
def gather_S4x4x512_S1000x77x1_S4x1000x77x512_03_1_n_n_1_2_41512 : GatherDims S4x4x512 S1000x77x1 S4x1000x77x512 where
  offsetDims := [0, 3]
  collapsedSliceDims := [1]
  operandBatchingDims := []
  startIndicesBatchingDims := []
  startIndexMap := [1]
  indexVectorDim := 2
  sliceSizes := ![4, 1, 512]
  wf := gather_S4x4x512_S1000x77x1_S4x1000x77x512_03_1_n_n_1_2_41512_wf

class Facts : Prop extends Facts₀ where

variable [Facts]
-- ==== Proof.Spec.lean ====
/-
  What the prompt tensor holds, stated once, over any element type.

  Entry (b, c, l, d) of the result [4, 1000, 77, 512] is one of three things. Class c's after-name context starts at the
  32-bit word s = name_len c + 5 (two's-complement, wrapping). If the position word l equals s + k for a k in {0, 1, 2, 3},
  the entry is row k of image b's shifted after-name context, at lane d. Otherwise, if 1 ≤ l < 5, it is row l − 1 of image
  b's shifted before-name context. Otherwise it is the embedding's entry (c, l, d). The after-name rows win over the
  before-name rows where both apply. The same selection, read on one block of 40 classes and 256 lanes, is what one
  grid point of the kernel leaves in its output block.
-/
import Idealize.ShloMosaic.Lib.ValueIdx
import Idealize.ShloMosaic.Lib.Pipeline.Value

namespace Cert.Prompt

open Idealize.ShloMosaic Idealize.ShloMosaic.ValueIdx

/-- The choice every entry makes, for a class whose after-name context starts at word `s` and a position word `p`: the
    after-name row `k` when `p = s + k`, the fallback `z` when `p` is none of the four words. The four words `s + k`
    are distinct, so at most one test succeeds; they are tried last row first. -/
def pick {α : Type} (s p : BitVec 32) (r : Fin 4 → α) (z : α) : α :=
  if p = s + 3#32 then r 3 else if p = s + 2#32 then r 2 else if p = s + 1#32 then r 1
  else if p = s + 0#32 then r 0 else z

/-- The row a gather's start index names in a table of four rows: the word read signed, clamped into [0, 3]. -/
def row4 (w : BitVec 32) : Fin 4 := ⟨min w.toInt.toNat 3, by omega⟩

/-- The before-name row a position in [1, 5) takes: position − 1 (capped at 3, which changes nothing on [1, 5)). -/
def beforeRow {n : Nat} (l : Fin n) : Fin 4 := ⟨min (l.val - 1) 3, by omega⟩

/-- The whole result as one function of the embedding `E`, the shifted before-name and after-name contexts `Bf`, `A`
    and the name lengths `nl`. -/
def result {α : Type} (E : (⟨3, ![1000, 77, 512]⟩ : Shape).Idx → α) (Bf A : (⟨3, ![4, 4, 512]⟩ : Shape).Idx → α)
    (nl : (⟨1, ![1000]⟩ : Shape).Idx → BitVec 32) : (⟨4, ![4, 1000, 77, 512]⟩ : Shape).Idx → α := fun j =>
  pick (nl (ix1 (j 1)) + 5#32) (BitVec.ofNat 32 (j 2).val) (fun k => A (ix3 (j 0) k (j 3)))
    (if 1 ≤ (j 2).val ∧ (j 2).val < 5 then Bf (ix3 (j 0) (beforeRow (j 2)) (j 3)) else E (ix3 (j 1) (j 2) (j 3)))

/-- One output block [1, 40, 77, 256] as a function of the point's input blocks: the embedding block `x0`, the image's
    before-name and after-name context blocks `x1`, `x2` (one image, four rows, 256 lanes) and the name-length block
    `x3` (40 classes, the length repeated along 128 lanes, lane 0 read). -/
def block {α : Type} (x0 : (⟨3, ![40, 77, 256]⟩ : Shape).Idx → α) (x1 x2 : (⟨3, ![1, 4, 256]⟩ : Shape).Idx → α)
    (x3 : (⟨2, ![40, 128]⟩ : Shape).Idx → BitVec 32) : (⟨4, ![1, 40, 77, 256]⟩ : Shape).Idx → α := fun y =>
  pick (x3 (ix2 (y 1) 0) + 5#32) (BitVec.ofNat 32 (y 2).val) (fun k => x2 (ix3 0 k (y 3)))
    (if 1 ≤ (y 2).val ∧ (y 2).val < 5 then x1 (ix3 0 (beforeRow (y 2)) (y 3)) else x0 (ix3 (y 1) (y 2) (y 3)))

/-- A block of the result: if the four input blocks are the matching pieces of the arrays — the name-length block a
    piece of the name lengths repeated along lanes, `nlp` — then the block's entry at `j` is the result's entry at the
    array index `i` that `j` lands on. -/
theorem block_eq_result_at {α : Type} (E : (⟨3, ![1000, 77, 512]⟩ : Shape).Idx → α)
    (Bf A : (⟨3, ![4, 4, 512]⟩ : Shape).Idx → α) (nlp : (⟨2, ![1000, 128]⟩ : Shape).Idx → BitVec 32)
    (x0 : (⟨3, ![40, 77, 256]⟩ : Shape).Idx → α) (x1 x2 : (⟨3, ![1, 4, 256]⟩ : Shape).Idx → α)
    (x3 : (⟨2, ![40, 128]⟩ : Shape).Idx → BitVec 32)
    (j : (⟨4, ![1, 40, 77, 256]⟩ : Shape).Idx) (i : (⟨4, ![4, 1000, 77, 512]⟩ : Shape).Idx)
    (h2 : j 2 = i 2) (h3 : x3 (ix2 (j 1) 0) = nlp (ix2 (i 1) 0))
    (hA : ∀ k : Fin 4, x2 (ix3 0 k (j 3)) = A (ix3 (i 0) k (i 3)))
    (hB : ∀ k : Fin 4, x1 (ix3 0 k (j 3)) = Bf (ix3 (i 0) k (i 3)))
    (hE : x0 (ix3 (j 1) (j 2) (j 3)) = E (ix3 (i 1) (i 2) (i 3))) :
    block x0 x1 x2 x3 j = result E Bf A (fun q => nlp (ix2 (q 0) 0)) i := by
  have hA' : (fun k => x2 (ix3 0 k (j 3))) = fun k => A (ix3 (i 0) k (i 3)) := funext hA
  unfold block result
  rw [h3, hA', hB, hE, h2]
  rfl

/-- A select on the kernel's widened mask: the one-bit equality test widened to 32 bits and compared with zero selects
    exactly when the two words are equal. -/
theorem select_widened_eq {α : Type} (a b : BitVec 32) (x y : α) :
    Scalar.select (IntOp.cmpi .ne ((IntOp.cmpi .eq a b).setWidth 32) 0#32) x y = if a = b then x else y := by
  by_cases h : a = b
  · subst h
    rw [if_pos rfl]
    have : IntOp.cmpi .ne ((IntOp.cmpi .eq a a).setWidth 32) 0#32 = 1#1 := by
      simp [IntOp.cmpi]
    rw [this]; rfl
  · rw [if_neg h]
    have hb : (a == b) = false := by simpa using h
    have : IntOp.cmpi .ne ((IntOp.cmpi .eq a b).setWidth 32) 0#32 = 0#1 := by
      simp only [IntOp.cmpi, hb]; decide
    rw [this]; rfl

end Cert.Prompt
-- ==== Proof.KernelBlock.lean ====
/-
  One grid point of the kernel, as a value. The body stores the embedding block, overwrites positions 1 to 4 with the
  image's before-name rows, reads the block back, and then, row by row of the after-name context, replaces the entry at
  every position whose word equals name_len + 5 + k; the last store writes the result whole. Read at an index of the
  block, that is the selection `Cert.Prompt.block` of the point's four input blocks.
-/
import proofs.«430693_j84713934946305_3_alg».proof.Proof.Spec
import proofs.«430693_j84713934946305_3_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx

namespace Cert.KernelIdeal.Block

open Cert.KernelIdeal Cert.KernelIdeal.Gen Cert.Prompt

variable {F : FTy → Type} [FloatOps F]

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-! ## The layout steps, each read at coordinates -/

/-- A [40, 1] column of words broadcast along 77 positions reads the column. -/
theorem bcast_col (v : IVec S40x1 32) (a : Fin 40) (b : Fin 77) :
    broadcastTo S40x77 v broadcasts_S40x1_S40x77 (ix2 a b) = v (ix2 a 0) :=
  broadcastTo_apply v broadcasts_S40x1_S40x77 (ix2 a b) (ix2 a 0) fun x => match x with
    | ⟨0, _⟩ => by show a.val = if (40 : Nat) = 1 then 0 else a.val; rw [if_neg (by decide)]
    | ⟨1, _⟩ => by show 0 = if (1 : Nat) = 1 then 0 else b.val; rw [if_pos rfl]

/-- A [1, 1, 256] row broadcast over 40 classes and 77 positions reads the row at the lane. -/
theorem bcast_row {α : Type} (v : S1x1x256.Idx → α) (a : Fin 40) (b : Fin 77) (d : Fin 256) :
    broadcastTo S40x77x256 v broadcasts_S1x1x256_S40x77x256 (ix3 a b d) = v (ix3 0 0 d) :=
  broadcastTo_apply v broadcasts_S1x1x256_S40x77x256 (ix3 a b d) (ix3 0 0 d) fun x => match x with
    | ⟨0, _⟩ => by show 0 = if (1 : Nat) = 1 then 0 else a.val; rw [if_pos rfl]
    | ⟨1, _⟩ => by show 0 = if (1 : Nat) = 1 then 0 else b.val; rw [if_pos rfl]
    | ⟨2, _⟩ => by show d.val = if (256 : Nat) = 1 then 0 else d.val; rw [if_neg (by decide)]

/-- A [40, 77, 1] mask broadcast along 256 lanes reads the mask at (class, position). -/
theorem bcast_mask (v : IVec S40x77x1 32) (a : Fin 40) (b : Fin 77) (d : Fin 256) :
    broadcastTo S40x77x256 v broadcasts_S40x77x1_S40x77x256 (ix3 a b d) = v (ix3 a b 0) :=
  broadcastTo_apply v broadcasts_S40x77x1_S40x77x256 (ix3 a b d) (ix3 a b 0) fun x => match x with
    | ⟨0, _⟩ => by show a.val = if (40 : Nat) = 1 then 0 else a.val; rw [if_neg (by decide)]
    | ⟨1, _⟩ => by show b.val = if (77 : Nat) = 1 then 0 else b.val; rw [if_neg (by decide)]
    | ⟨2, _⟩ => by show 0 = if (1 : Nat) = 1 then 0 else d.val; rw [if_pos rfl]

/-- A [40, 77] array viewed [40, 77, 1] reads itself. -/
theorem cast_mask (v : IVec S40x77 32) (a : Fin 40) (b : Fin 77) :
    shapeCast S40x77x1 v shapeCasts_S40x77_S40x77x1 (ix3 a b 0) = v (ix2 a b) :=
  shapeCast_apply v shapeCasts_S40x77_S40x77x1 (ix3 a b 0) (ix2 a b) (by
    rw [Shape.rowMajor_val_two, Shape.rowMajor_val_three]; show a.val * 77 + b.val = (a.val * 77 + b.val) * 1 + 0; omega)

theorem cmpi_apply {s : Shape} {w : Nat} (p : CmpIPredicate) (x y : IVec s w) (i : s.Idx) :
    cmpi p x y i = IntOp.cmpi p (x i) (y i) := rfl
theorem addi_apply {s : Shape} {w : Nat} (x y : IVec s w) (i : s.Idx) : addi x y i = x i + y i := rfl

/-- A [1, 1, 256] row viewed flat and back is itself. -/
theorem row_cast {α : Type} (v : S1x1x256.Idx → α) :
    shapeCast S1x1x256 (shapeCast S1x1x256 (shapeCast S256 v shapeCasts_S1x1x256_S256) shapeCasts_S256_S1x1x256)
      shapeCasts_S1x1x256_S1x1x256 = v := by
  rw [shapeCast_self, shapeCast_shapeCast]

/-! ## The body's pure values, read at coordinates -/

/-- The class's start word: its name length (lane 0 of its row of the name-length block) plus 5. -/
theorem pay4_apply (v13 : Vec F S40x1 .i32) (a : Fin 40) (b : Fin 77) :
    k0_pay4 v13 (ix2 a b) = v13 (ix2 a 0) + 5#32 := by
  unfold k0_pay4
  rw [addi_apply, shapeCast_self, shapeCast_self, bcast_col, broadcast_apply]

/-- One after-name row broadcast over the block reads that row at the lane. -/
theorem pay6_apply (v : Vec F S1x1x256 .f32) (a : Fin 40) (b : Fin 77) (d : Fin 256) :
    k0_pay6 v (ix3 a b d) = v (ix3 0 0 d) := by
  unfold k0_pay6
  rw [row_cast, bcast_row]

theorem pay9_apply (v : Vec F S1x1x256 .f32) (a : Fin 40) (b : Fin 77) (d : Fin 256) :
    k0_pay9 v (ix3 a b d) = v (ix3 0 0 d) := by
  unfold k0_pay9
  rw [row_cast, bcast_row]

/-- The first mask, widened: position word against start + 0. -/
theorem pay7_apply (v13 : Vec F S40x1 .i32) (a : Fin 40) (b : Fin 77) :
    k0_pay7 v13 (ix2 a b)
      = (IntOp.cmpi .eq (BitVec.ofNat 32 b.val) (v13 (ix2 a 0) + 5#32 + 0#32)).setWidth 32 := by
  unfold k0_pay7
  dsimp only
  rw [extui_apply, cmpi_apply, addi_apply, pay4_apply, broadcast_apply, iota_single_apply]

/-- The last mask, widened and broadcast along the lanes: position word against start + 3. -/
theorem pay10_apply (v12 v18 : IVec S40x77 32) (a : Fin 40) (b : Fin 77) (d : Fin 256) :
    k0_pay10 v12 v18 (ix3 a b d)
      = (IntOp.cmpi .eq (v12 (ix2 a b)) (v18 (ix2 a b) + 3#32)).setWidth 32 := by
  unfold k0_pay10
  rw [bcast_mask, cast_mask, extui_apply, cmpi_apply, addi_apply, broadcast_apply]

/-- The running value after the first three after-name rows. -/
theorem pay8_apply (v12 v18 : IVec S40x77 32) (v20 v25 : FVec F S40x77x256 .f32) (v29 : IVec S40x77 32)
    (v35 v49 : Vec F S1x1x256 .f32) (a : Fin 40) (b : Fin 77) (d : Fin 256) :
    k0_pay8 v12 v18 v20 v25 v29 v35 v49 (ix3 a b d)
      = Scalar.select (IntOp.cmpi .ne ((IntOp.cmpi .eq (v12 (ix2 a b)) (v18 (ix2 a b) + 2#32)).setWidth 32) 0#32)
          (v49 (ix3 0 0 d))
          (Scalar.select (IntOp.cmpi .ne ((IntOp.cmpi .eq (v12 (ix2 a b)) (v18 (ix2 a b) + 1#32)).setWidth 32) 0#32)
            (v35 (ix3 0 0 d))
            (Scalar.select (IntOp.cmpi .ne (v29 (ix2 a b)) 0#32) (v25 (ix3 a b d)) (v20 (ix3 a b d)))) := by
  unfold k0_pay8
  simp only [select_apply, cmpi_apply, addi_apply, extui_apply, broadcast_apply, bcast_mask, cast_mask, row_cast, bcast_row]

/-- The embedding block stored as a [1, 40, 77, 256] block reads itself. -/
theorem pay2_apply (v0 : Vec F S40x77x256 .f32) (a : Fin 40) (b : Fin 77) (d : Fin 256) :
    k0_pay2 v0 (ix4 0 a b d) = v0 (ix3 a b d) := by
  unfold k0_pay2
  exact shapeCast_apply v0 shapeCasts_S40x77x256_S1x40x77x256 (ix4 0 a b d) (ix3 a b d) (by
    rw [Shape.rowMajor_val_three, Shape.rowMajor_val_four]
    show (a.val * 77 + b.val) * 256 + d.val = ((0 * 40 + a.val) * 77 + b.val) * 256 + d.val
    omega)

/-- The block read back and viewed [40, 77, 256] reads itself. -/
theorem pay5_apply (v19 : Vec F S1x40x77x256 .f32) (a : Fin 40) (b : Fin 77) (d : Fin 256) :
    k0_pay5 v19 (ix3 a b d) = v19 (ix4 0 a b d) := by
  unfold k0_pay5
  exact shapeCast_apply v19 shapeCasts_S1x40x77x256_S40x77x256 (ix3 a b d) (ix4 0 a b d) (by
    rw [Shape.rowMajor_val_three, Shape.rowMajor_val_four]
    show ((0 * 40 + a.val) * 77 + b.val) * 256 + d.val = (a.val * 77 + b.val) * 256 + d.val
    omega)

/-- The before-name rows broadcast over the 40 classes: class `a`, row `r`, lane `d` reads row `r` at lane `d`. -/
theorem pay3_apply (v4 : Vec F S1x4x256 .f32) (a : Fin 40) (r : Fin 4) (d : Fin 256) :
    k0_pay3 v4 (ix4 0 a r d) = v4 (ix3 0 r d) := by
  unfold k0_pay3
  rw [shapeCast_apply _ shapeCasts_S40x4x256_S1x40x4x256 (ix4 0 a r d) (ix3 a r d) (by
      rw [Shape.rowMajor_val_three, Shape.rowMajor_val_four]
      show (a.val * 4 + r.val) * 256 + d.val = ((0 * 40 + a.val) * 4 + r.val) * 256 + d.val
      omega),
    broadcastTo_apply _ broadcasts_S1x4x256_S40x4x256 (ix3 a r d) (ix3 0 r d) (fun x => match x with
      | ⟨0, _⟩ => by show 0 = if (1 : Nat) = 1 then 0 else a.val; rw [if_pos rfl]
      | ⟨1, _⟩ => by show r.val = if (4 : Nat) = 1 then 0 else r.val; rw [if_neg (by decide)]
      | ⟨2, _⟩ => by show d.val = if (256 : Nat) = 1 then 0 else d.val; rw [if_neg (by decide)]),
    shapeCast_self, shapeCast_shapeCast]

/-- The last store's value: the last after-name row where its mask is set, the running value elsewhere. -/
theorem pay1_apply (v62 v67 : FVec F S40x77x256 .f32) (v73 : IVec S40x77x256 32) (z : BitVec 32)
    (a : Fin 40) (b : Fin 77) (d : Fin 256) :
    k0_pay1 v62 v67 v73 z (ix4 0 a b d)
      = Scalar.select (IntOp.cmpi .ne (v73 (ix3 a b d)) z) (v67 (ix3 a b d)) (v62 (ix3 a b d)) := by
  unfold k0_pay1
  rw [shapeCast_apply _ shapeCasts_S40x77x256_S1x40x77x256 (ix4 0 a b d) (ix3 a b d) (by
      rw [Shape.rowMajor_val_three, Shape.rowMajor_val_four]
      show (a.val * 77 + b.val) * 256 + d.val = ((0 * 40 + a.val) * 77 + b.val) * 256 + d.val
      omega),
    select_apply, cmpi_apply, broadcast_apply]

/-! ## The block after the first two stores -/

/-- After the embedding block is stored whole and positions 1 to 4 are overwritten by the before-name rows, the block
    holds the before-name row `l − 1` at a position `l` in [1, 5) and the embedding's entry elsewhere. -/
theorem mid_apply (x0 : Vec F S40x77x256 .f32) (x1 : Vec F S1x4x256 .f32)
    (inb2 : ∀ a, (![0, 0, 1, 0] : Fin 4 → Nat) a + S1x40x4x256.size a ≤ S1x40x77x256.size a)
    (inb1 : ∀ a, (![0, 0, 0, 0] : Fin 4 → Nat) a + S1x40x77x256.size a ≤ S1x40x77x256.size a)
    (a : Fin 40) (b : Fin 77) (d : Fin 256) :
    View.canon (Val := Elt F) [⟨Rect.unit (s := S1x40x77x256) ![0, 0, 1, 0] S1x40x4x256.size inb2, k0_pay3 x1⟩,
        ⟨Rect.unit (s := S1x40x77x256) ![0, 0, 0, 0] S1x40x77x256.size inb1, k0_pay2 x0⟩] (ix4 0 a b d)
      = if 1 ≤ b.val ∧ b.val < 5 then x1 (ix3 0 (beforeRow b) d) else x0 (ix3 a b d) := by
  by_cases hb : 1 ≤ b.val ∧ b.val < 5
  · rw [if_pos hb]
    have he : (Rect.unit (s := S1x40x77x256) ![0, 0, 1, 0] S1x40x4x256.size inb2).emb (ix4 0 a (⟨b.val - 1, by omega⟩ : Fin 4) d)
        = ix4 0 a b d := by
      funext ax
      apply Fin.ext
      match ax with
      | ⟨0, _⟩ => rfl
      | ⟨1, _⟩ => show 0 + 1 * a.val = a.val; omega
      | ⟨2, _⟩ => show 1 + 1 * (b.val - 1) = b.val; omega
      | ⟨3, _⟩ => show 0 + 1 * d.val = d.val; omega
    rw [← he, View.canon_cons_emb, pay3_apply]
    congr 1
    unfold beforeRow
    congr 1
    apply Fin.ext
    show b.val - 1 = min (b.val - 1) 3
    omega
  · rw [if_neg hb]
    rw [View.canon_cons_of_not_mem _ _ (by
      rw [Rect.mem_set_unit]
      intro h
      have h2 := h 2
      have : (1 : Nat) ≤ b.val ∧ b.val < 1 + 4 := h2
      omega), View.canon_unit_zero hz4, pay2_apply]

/-! ## Loads of the input blocks through the body's rectangles -/

/-- Lane 0 of the name-length block, one word per class. -/
theorem ld_len (x3 : Vec F S40x128 .i32) (inb : ∀ a, (![0, 0] : Fin 2 → Nat) a + S40x1.size a ≤ S40x128.size a) (a : Fin 40) :
    View.ld x3 (Rect.unit (s := S40x128) ![0, 0] S40x1.size inb) (ix2 a 0) = x3 (ix2 a 0) := by
  show x3 _ = x3 _
  congr 1
  funext ax
  apply Fin.ext
  match ax with
  | ⟨0, _⟩ => show 0 + 1 * a.val = a.val; omega
  | ⟨1, _⟩ => rfl

/-- Row `k` of the after-name block. -/
theorem ld_row (x2 : Vec F S1x4x256 .f32) (k : Nat) (hk : k < 4)
    (inb : ∀ a, (![0, k, 0] : Fin 3 → Nat) a + S1x1x256.size a ≤ S1x4x256.size a) (d : Fin 256) :
    View.ld x2 (Rect.unit (s := S1x4x256) ![0, k, 0] S1x1x256.size inb) (ix3 0 0 d) = x2 (ix3 0 ⟨k, hk⟩ d) := by
  show x2 _ = x2 _
  congr 1
  funext ax
  apply Fin.ext
  match ax with
  | ⟨0, _⟩ => rfl
  | ⟨1, _⟩ => show k + 1 * 0 = k; omega
  | ⟨2, _⟩ => show 0 + 1 * d.val = d.val; omega

/-! ## What one point leaves in its output block -/

/-- The output block after the body, from the point's input blocks. -/
theorem out_eq (c : Dev nD) (i : grid0.Coords) (a3 : Memref sig .tc .vmem S40x77x256 .f32) (h3 : a3.IsWhole)
    (a4 : Memref sig .tc .vmem S1x4x256 .f32) (h4 : a4.IsWhole) (a5 : Memref sig .tc .vmem S1x4x256 .f32) (h5 : a5.IsWhole)
    (a6 : Memref sig .tc .vmem S40x128 .i32) (h6 : a6.IsWhole) (a7 : Memref sig .tc .vmem S1x40x77x256 .f32) (h7 : a7.IsWhole)
    (x0 : Vec F S40x77x256 .f32) (x1 : Vec F S1x4x256 .f32) (x2 : Vec F S1x4x256 .f32) (x3 : Vec F S40x128 .i32) :
    out0_A_4 c i a3 h3 a4 h4 a5 h5 a6 h6 a7 h7 x0 x1 x2 x3 = block x0 x1 x2 x3 := by
  unfold out0_A_4
  rw [View.read_writes_eq_canon _ _ _ (cover0_A_4 c i a3 h3 a4 h4 a5 h5 a6 h6 a7 h7 x0 x1 x2 x3)]
  unfold kernelRun0_A
  dsimp only
  sl_unfold_words
  rw [View.canon_cons_unit_zero (S := S1x40x77x256) hz4]
  simp only [View.readAt_eq_ld, h3.read_unread, h4.read_unread, h5.read_unread, h6.read_unread,
    View.ld_unit_zero (S := S40x77x256) hz3, View.ld_unit_zero (S := S1x4x256) hz3]
  have hcov : ∀ (p2 : View.Piece (Elt F) S1x40x77x256 .f32)
      (inb : ∀ a, (![0, 0, 0, 0] : Fin 4 → Nat) a + S1x40x77x256.size a ≤ S1x40x77x256.size a)
      (w : S1x40x77x256.Idx → Elt F .f32) (y : S1x40x77x256.Idx),
      ∃ p ∈ [p2, (⟨Rect.unit (s := S1x40x77x256) ![0, 0, 0, 0] S1x40x77x256.size inb, w⟩ : View.Piece (Elt F) S1x40x77x256 .f32)],
        y ∈ p.1.set :=
    fun p2 inb w y => ⟨_, List.mem_cons_of_mem _ (List.mem_singleton_self _), View.mem_set_unit_zero hz4 inb y⟩
  rw [View.readCov_eq_canon_ld _ _ _ (hcov _ _ _), View.ld_unit_zero (S := S1x40x77x256) hz4]
  funext y
  obtain ⟨a, b, d, rfl⟩ : ∃ (a : Fin 40) (b : Fin 77) (d : Fin 256), y = ix4 0 a b d :=
    ⟨y 1, y 2, y 3, funext fun ax => match ax with
      | ⟨0, _⟩ => Fin.ext (by have h : (y 0).val < 1 := (y 0).isLt; show (y 0).val = 0; omega)
      | ⟨1, _⟩ => rfl
      | ⟨2, _⟩ => rfl
      | ⟨3, _⟩ => rfl⟩
  rw [pay1_apply, pay8_apply, pay9_apply, pay10_apply, pay5_apply, pay6_apply, pay7_apply, pay4_apply, mid_apply,
    iota_single_apply, ld_len, ld_row x2 0 (by decide), ld_row x2 1 (by decide), ld_row x2 2 (by decide),
    ld_row x2 3 (by decide)]
  simp only [select_widened_eq]
  rfl

end Cert.KernelIdeal.Block
end
-- ==== Proof.KernelValue.lean ====
/-
  The kernel's result array. Each grid point (class tile, lane tile, image) writes back one [1, 40, 77, 256] block, and that
  block is the selection `Cert.Prompt.block` of the point's input blocks (KernelBlock). The windows' index maps say which
  piece of which array each input block is: the embedding's classes 40·ct … and lanes 256·dt …, image b's context rows at
  those lanes, the name lengths of those classes. So the block is the matching block of ONE whole-array function,
  `Cert.Prompt.result` of the arrays as the region finds them, and the 200 blocks tile the [4, 1000, 77, 512] array.
-/
import proofs.«430693_j84713934946305_3_alg».proof.Proof.KernelBlock
import proofs.«430693_j84713934946305_3_alg».proof.Proof.Gen.KernelIdeal.Value
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.Prompt

variable {F : FTy → Type} [FloatOps F]
variable (m : (ℓ : Loc nD τ sig) → Buf (Elt F) ℓ) (ρ : Dev nD → PrngReg)

/-- The result as one function of the arrays the region finds: the embedding, the two shifted contexts the host
    computed, and the name lengths read off lane 0 of their lane-repeated copy. -/
def kres (c : Dev nD) : S4x1000x77x512.Idx → Elt F .f32 :=
  result (V m c main_arg7 : S1000x77x512.Idx → Elt F .f32) (V m c main_v14 : S4x4x512.Idx → Elt F .f32)
    (V m c main_v19 : S4x4x512.Idx → Elt F .f32) (fun q => (V m c main_v21 : S1000x128.Idx → BitVec 32) (ix2 (q 0) 0))

/-- The printed index maps, decided over the 200 grid points: the output block's image, class-tile and lane-tile indices
    are the ones the input windows use; every other block index is 0. -/
theorem idx_facts : ∀ t : Fin cfg0.N,
    win0_1.index t (0 : Fin 3) = win0_4.index t (0 : Fin 4) ∧ win0_2.index t (0 : Fin 3) = win0_4.index t (0 : Fin 4)
    ∧ win0_0.index t (0 : Fin 3) = win0_4.index t (1 : Fin 4) ∧ win0_3.index t (0 : Fin 2) = win0_4.index t (1 : Fin 4)
    ∧ win0_4.index t (2 : Fin 4) = 0 ∧ win0_0.index t (1 : Fin 3) = 0 ∧ win0_1.index t (1 : Fin 3) = 0
    ∧ win0_2.index t (1 : Fin 3) = 0 ∧ win0_3.index t (1 : Fin 2) = 0
    ∧ win0_0.index t (2 : Fin 3) = win0_4.index t (3 : Fin 4) ∧ win0_1.index t (2 : Fin 3) = win0_4.index t (3 : Fin 4)
    ∧ win0_2.index t (2 : Fin 3) = win0_4.index t (3 : Fin 4)
    ∧ win0_4.index t (0 : Fin 4) < 4 ∧ win0_4.index t (1 : Fin 4) < 25 ∧ win0_4.index t (3 : Fin 4) < 2 :=
  (by decide +kernel : ∀ t : Fin grid0.N, _)

/-- Every (image, class tile, lane tile) is some point's output block. -/
theorem idx_onto : ∀ (q0 : Fin 4) (q1 : Fin 25) (q3 : Fin 2), ∃ t : Fin cfg0.N, win0_4.index t = ![q0.val, q1.val, 0, q3.val] :=
  (by decide +kernel : ∀ (q0 : Fin 4) (q1 : Fin 25) (q3 : Fin 2), ∃ t : Fin grid0.N, win0_4.index t = ![q0.val, q1.val, 0, q3.val])

/-- WHAT POINT `t` WRITES BACK is block `t` of `kres`. -/
theorem flushed_eq (c : Dev nD) (t : Fin cfg0.N) :
    (dats m 0 c).flushed 4 t = ((cfg0.win 4).blk t).view.read (Elt F) (kres m c) := by
  rw [Value.flushed4_A, Block.out_eq]
  obtain ⟨e1, e2, e3, e4, e5, e6, e7, e8, e9, e10, e11, e12, b0, b1, b3⟩ := idx_facts t
  funext j
  show block (iblk m c 0 t) (iblk m c 1 t) (iblk m c 2 t) (iblk m c 3 t) j = kres m c (((cfg0.win 4).blk t).view.emb j)
  unfold kres
  have hj0 : (j 0).val < 1 := (j 0).isLt
  have hj1 : (j 1).val < 40 := (j 1).isLt
  have hj2 : (j 2).val < 77 := (j 2).isLt
  have hj3 : (j 3).val < 256 := (j 3).isLt
  refine block_eq_result_at _ _ _ _ _ _ _ _ j _ ?_ ?_ ?_ ?_ ?_
  · apply Fin.ext
    show (j 2).val = win0_4.index t (2 : Fin 4) * 77 + 1 * (j 2).val
    omega
  · show V m c main_v21 (((cfg0.win 3).blk t).view.emb (ix2 (j 1) 0)) = V m c main_v21 _
    congr 1
    funext a
    apply Fin.ext
    match a with
    | ⟨0, _⟩ => show win0_3.index t (0 : Fin 2) * 40 + 1 * (j 1).val = win0_4.index t (1 : Fin 4) * 40 + 1 * (j 1).val; omega
    | ⟨1, _⟩ => show win0_3.index t (1 : Fin 2) * 128 + 1 * 0 = 0; omega
  · intro k
    have hk : k.val < 4 := k.isLt
    show V m c main_v19 (((cfg0.win 2).blk t).view.emb (ix3 0 k (j 3))) = V m c main_v19 _
    congr 1
    funext a
    apply Fin.ext
    match a with
    | ⟨0, _⟩ => show win0_2.index t (0 : Fin 3) * 1 + 1 * 0 = win0_4.index t (0 : Fin 4) * 1 + 1 * (j 0).val; omega
    | ⟨1, _⟩ => show win0_2.index t (1 : Fin 3) * 4 + 1 * k.val = k.val; omega
    | ⟨2, _⟩ => show win0_2.index t (2 : Fin 3) * 256 + 1 * (j 3).val = win0_4.index t (3 : Fin 4) * 256 + 1 * (j 3).val; omega
  · intro k
    have hk : k.val < 4 := k.isLt
    show V m c main_v14 (((cfg0.win 1).blk t).view.emb (ix3 0 k (j 3))) = V m c main_v14 _
    congr 1
    funext a
    apply Fin.ext
    match a with
    | ⟨0, _⟩ => show win0_1.index t (0 : Fin 3) * 1 + 1 * 0 = win0_4.index t (0 : Fin 4) * 1 + 1 * (j 0).val; omega
    | ⟨1, _⟩ => show win0_1.index t (1 : Fin 3) * 4 + 1 * k.val = k.val; omega
    | ⟨2, _⟩ => show win0_1.index t (2 : Fin 3) * 256 + 1 * (j 3).val = win0_4.index t (3 : Fin 4) * 256 + 1 * (j 3).val; omega
  · show V m c main_arg7 (((cfg0.win 0).blk t).view.emb (ix3 (j 1) (j 2) (j 3))) = V m c main_arg7 _
    congr 1
    funext a
    apply Fin.ext
    match a with
    | ⟨0, _⟩ => show win0_0.index t (0 : Fin 3) * 40 + 1 * (j 1).val = win0_4.index t (1 : Fin 4) * 40 + 1 * (j 1).val; omega
    | ⟨1, _⟩ => show win0_0.index t (1 : Fin 3) * 77 + 1 * (j 2).val = win0_4.index t (2 : Fin 4) * 77 + 1 * (j 2).val; omega
    | ⟨2, _⟩ => show win0_0.index t (2 : Fin 3) * 256 + 1 * (j 3).val = win0_4.index t (3 : Fin 4) * 256 + 1 * (j 3).val; omega

/-- An index of the array is in point `t`'s block iff each coordinate is in the block's range on its axis. -/
theorem mem_blk (t : Fin cfg0.N) (i : S4x1000x77x512.Idx) :
    i ∈ ((cfg0.win 4).blk t).view.set ↔ ∀ a : Fin 4, win0_4.index t a * S1x40x77x256.size a ≤ (i a).val
      ∧ (i a).val < win0_4.index t a * S1x40x77x256.size a + S1x40x77x256.size a := by
  show i ∈ ((View.whole main_v22).slice (win0_4.rect t)).set ↔ _
  rw [View.set_slice_whole, Rect.mem_set_unit]
  exact Iff.rfl

/-- The blocks tile the array: entry (b, c, l, d) lies in the block of image b, class tile c / 40, lane tile d / 256. -/
theorem cover (i : S4x1000x77x512.Idx) :
    ∃ t : Fin cfg0.N, (cfg0.win 4).flush t = true ∧ i ∈ ((cfg0.win 4).blk t).view.set := by
  have hi0 : (i 0).val < 4 := (i 0).isLt
  have hi1 : (i 1).val < 1000 := (i 1).isLt
  have hi2 : (i 2).val < 77 := (i 2).isLt
  have hi3 : (i 3).val < 512 := (i 3).isLt
  obtain ⟨t, ht⟩ := idx_onto ⟨(i 0).val, hi0⟩ ⟨(i 1).val / 40, by omega⟩ ⟨(i 3).val / 256, by omega⟩
  have q0 : win0_4.index t (0 : Fin 4) = (i 0).val := congrFun ht 0
  have q1 : win0_4.index t (1 : Fin 4) = (i 1).val / 40 := congrFun ht 1
  have q2 : win0_4.index t (2 : Fin 4) = 0 := congrFun ht 2
  have q3 : win0_4.index t (3 : Fin 4) = (i 3).val / 256 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 40 ≤ (i 1).val ∧ (i 1).val < win0_4.index t (1 : Fin 4) * 40 + 40; omega
  | ⟨2, _⟩ => show win0_4.index t (2 : Fin 4) * 77 ≤ (i 2).val ∧ (i 2).val < win0_4.index t (2 : Fin 4) * 77 + 77; omega
  | ⟨3, _⟩ => show win0_4.index t (3 : Fin 4) * 256 ≤ (i 3).val ∧ (i 3).val < win0_4.index t (3 : Fin 4) * 256 + 256; omega

/-- THE ARRAY after the run is `kres`. -/
theorem final (c : Dev nD) : (dats m 0 c).arrAt 4 cfg0.N = kres m c :=
  (dats m 0 c).arrAt_eq_of_cover 4 (kres m c) (fun t _ => flushed_eq m c t) cover

end Cert.KernelIdeal.Whole
end
-- ==== Proof.Words.lean ====
/-
  The reference's position tests, on 32-bit words.

  The reference decides "position p lies in [s, s + 4)" by two signed comparisons, p ≥ s and p < s + 4 with s + 4 wrapping,
  and names the row by clip(p − s, 0, 3), then jnp's negative-index normalization, then the gather's own clamp. For a
  position word p below 77 the pair of comparisons holds exactly when p = s + k for a k in {0, 1, 2, 3} (if s + 4 wraps
  past the largest signed word then s itself is larger than every position, and no p qualifies), and the row named is
  then k. The before-name tests 1 ≤ p < 5 and the row clip(p − 1, 0, 3) are the same with s = 1.
-/
import proofs.«430693_j84713934946305_3_alg».proof.Proof.Spec

namespace Cert.Prompt

open Idealize.ShloMosaic

theorem ofBool_eq_one (b : Bool) : BitVec.ofBool b = 1#1 ↔ b = true := by cases b <;> decide

theorem cmpi_sge_iff (x y : BitVec 32) : IntOp.cmpi .sge x y = 1#1 ↔ y.toInt ≤ x.toInt := by
  unfold IntOp.cmpi
  simp only [BitVec.sle, ofBool_eq_one, decide_eq_true_eq]

theorem cmpi_slt_iff (x y : BitVec 32) : IntOp.cmpi .slt x y = 1#1 ↔ x.toInt < y.toInt := by
  unfold IntOp.cmpi
  simp only [BitVec.slt, ofBool_eq_one, decide_eq_true_eq]

theorem andi_eq_one_iff (a b : BitVec 1) : IntOp.andi a b = 1#1 ↔ a = 1#1 ∧ b = 1#1 := by
  revert a b; decide

theorem bit_eq_zero_of_ne_one (a : BitVec 1) (h : ¬a = 1#1) : a = 0#1 := by
  revert a; decide

/-- The reference's membership test for the window [s, s + 4): two signed comparisons, the upper bound wrapping. -/
def inWindow (s p : BitVec 32) : BitVec 1 :=
  IntOp.andi (IntOp.cmpi .sge p s) (IntOp.cmpi .slt p (IntOp.addi s 4#32))

/-- The reference's row word: x clipped into [0, 3] (max with 0, then min with 3), then 4 added if negative. -/
def rowWord (x : BitVec 32) : BitVec 32 :=
  Scalar.select (IntOp.cmpi .slt (IntOp.minsi 3#32 (IntOp.maxsi 0#32 x)) 0#32)
    (IntOp.addi (IntOp.minsi 3#32 (IntOp.maxsi 0#32 x)) 4#32) (IntOp.minsi 3#32 (IntOp.maxsi 0#32 x))

/-- The signed reading of a word from its unsigned one. -/
theorem toInt_cond (x : BitVec 32) :
    x.toInt = if 2 * x.toNat < 4294967296 then (x.toNat : Int) else (x.toNat : Int) - 4294967296 := by
  rw [BitVec.toInt_eq_toNat_cond]; rfl

/-- A word that reads signed as a number in [0, 3] names that row, after the clip, the normalization and the clamp. -/
theorem rowWord_of_small (x : BitVec 32) (k : Nat) (hk : k < 4) (hx : x.toNat = k) :
    min (rowWord x).toInt.toNat 3 = k := by
  have hx' : x = BitVec.ofNat 32 k := BitVec.toNat_inj.1 (by rw [hx, BitVec.toNat_ofNat]; omega)
  subst hx'
  have : k = 0 ∨ k = 1 ∨ k = 2 ∨ k = 3 := by omega
  rcases this with rfl | rfl | rfl | rfl <;> decide

/-- A position word below 77 passes the reference's window test for start `s` exactly when it is `s + k` for a
    `k` in {0, 1, 2, 3}: read signed, `s ≤ p` and `p < s + 4` with `s + 4` wrapped; where it wraps, `s` is above every position. -/
theorem inWindow_iff (s p : BitVec 32) (hp : p.toNat < 77) :
    inWindow s p = 1#1 ↔ (p = s + 0#32 ∨ p = s + 1#32 ∨ p = s + 2#32 ∨ p = s + 3#32) := by
  unfold inWindow
  rw [andi_eq_one_iff, cmpi_sge_iff, cmpi_slt_iff]
  show s.toInt ≤ p.toInt ∧ p.toInt < (s + 4#32).toInt ↔ _
  rw [toInt_cond s, toInt_cond p, toInt_cond (s + 4#32)]
  simp only [← BitVec.toNat_inj, BitVec.toNat_add, BitVec.toNat_ofNat, Nat.reducePow, Nat.reduceMod]
  have hs := s.isLt
  simp only [Nat.reducePow] at hs
  generalize s.toNat = n at *
  generalize p.toNat = q at *
  split_ifs <;> omega

/-- Where the position word is `s + k`, the difference the reference clips is `k`. -/
theorem sub_of_eq (s p : BitVec 32) (k : Nat) (hk : k < 4) (h : p = s + BitVec.ofNat 32 k) : (p - s).toNat = k := by
  subst h
  have hs := s.isLt
  rw [BitVec.toNat_sub, BitVec.toNat_add, BitVec.toNat_ofNat]
  simp only [Nat.reducePow] at hs ⊢
  omega

/-- The reference's select on its window test, with the row its clip names, is the choice `pick`. -/
theorem select_window {α : Type} (s p : BitVec 32) (hp : p.toNat < 77) (r : Fin 4 → α) (z : α) :
    Scalar.select (inWindow s p) (r (row4 (rowWord (p - s)))) z = pick s p r z := by
  have hit : ∀ (k : Nat) (hk : k < 4), p = s + BitVec.ofNat 32 k →
      Scalar.select (inWindow s p) (r (row4 (rowWord (p - s)))) z = r ⟨k, hk⟩ := by
    intro k hk h
    have hw : inWindow s p = 1#1 := by
      rw [inWindow_iff s p hp]
      have : k = 0 ∨ k = 1 ∨ k = 2 ∨ k = 3 := by omega
      rcases this with rfl | rfl | rfl | rfl
      · exact Or.inl h
      · exact Or.inr (Or.inl h)
      · exact Or.inr (Or.inr (Or.inl h))
      · exact Or.inr (Or.inr (Or.inr h))
    rw [hw, ValueIdx.select_one]
    exact congrArg r (Fin.ext (rowWord_of_small _ k hk (sub_of_eq s p k hk h)))
  unfold pick
  by_cases h3 : p = s + 3#32
  · rw [if_pos h3]; exact hit 3 (by decide) h3
  rw [if_neg h3]
  by_cases h2 : p = s + 2#32
  · rw [if_pos h2]; exact hit 2 (by decide) h2
  rw [if_neg h2]
  by_cases h1 : p = s + 1#32
  · rw [if_pos h1]; exact hit 1 (by decide) h1
  rw [if_neg h1]
  by_cases h0 : p = s + 0#32
  · rw [if_pos h0]; exact hit 0 (by decide) h0
  rw [if_neg h0]
  have hw : inWindow s p = 0#1 := bit_eq_zero_of_ne_one _ (fun h => by
    rcases (inWindow_iff s p hp).1 h with h | h | h | h
    · exact h0 h
    · exact h1 h
    · exact h2 h
    · exact h3 h)
  rw [hw, ValueIdx.select_zero]

/-- The before-name choice: for a position `l` below 77 the window [1, 5) of words is the range 1 ≤ l < 5 of numbers,
    and the row named is `l − 1`. -/
theorem pick_before {α : Type} (l : Fin 77) (r : Fin 4 → α) (z : α) :
    pick 1#32 (BitVec.ofNat 32 l.val) r z = if 1 ≤ l.val ∧ l.val < 5 then r (beforeRow l) else z := by
  have hl := l.isLt
  have hne : ∀ k : Nat, k < 5 → l.val ≠ k → ¬BitVec.ofNat 32 l.val = BitVec.ofNat 32 k := by
    intro k hk hlk h
    have := congrArg BitVec.toNat h
    simp only [BitVec.toNat_ofNat, Nat.reducePow] at this
    omega
  have e3 : (1#32 + 3#32 : BitVec 32) = BitVec.ofNat 32 4 := rfl
  have e2 : (1#32 + 2#32 : BitVec 32) = BitVec.ofNat 32 3 := rfl
  have e1 : (1#32 + 1#32 : BitVec 32) = BitVec.ofNat 32 2 := rfl
  have e0 : (1#32 + 0#32 : BitVec 32) = BitVec.ofNat 32 1 := rfl
  unfold pick
  rw [e3, e2, e1, e0]
  by_cases h4 : l.val = 4
  · obtain rfl : l = ⟨4, by decide⟩ := Fin.ext h4
    rfl
  by_cases h3 : l.val = 3
  · obtain rfl : l = ⟨3, by decide⟩ := Fin.ext h3
    rfl
  by_cases h2 : l.val = 2
  · obtain rfl : l = ⟨2, by decide⟩ := Fin.ext h2
    rfl
  by_cases h1 : l.val = 1
  · obtain rfl : l = ⟨1, by decide⟩ := Fin.ext h1
    rfl
  rw [if_neg (hne 4 (by decide) h4), if_neg (hne 3 (by decide) h3), if_neg (hne 2 (by decide) h2),
    if_neg (hne 1 (by decide) h1), if_neg (by omega)]

end Cert.Prompt
-- ==== Proof.RefGather.lean ====
/-
  What the reference's two gathers read. Both take rows of a [4, 4, 512] context array along its middle axis: the result
  keeps the operand's image and lane coordinates, and the row is the start index at the result's position (positions
  (l) for the before-name gather, (c, l) for the after-name gather), read signed and clamped into [0, 3].
-/
import proofs.«430693_j84713934946305_3_alg».proof.Proof.Gen.ReferenceIdeal
import proofs.«430693_j84713934946305_3_alg».proof.Proof.Spec
import Idealize.ShloMosaic.Lib.ValueIdx
import Idealize.ShloMosaic.Lib.Pipeline.Value

noncomputable section

open Idealize.ShloMosaic Idealize.ShloMosaic.ValueIdx

namespace Cert.ReferenceIdeal.Gathers

open Cert.ReferenceIdeal Cert.ReferenceIdeal.Gen Cert.Prompt

/-- The before-name gather: result (b, l, e) reads the operand at (b, row, e), the row the start index of position `l`
    read signed and clamped into [0, 3]. -/
theorem gather_before {α : Type} (x : S4x4x512.Idx → α) (idx : IVec S77x1 32) (b : Fin 4) (l : Fin 77) (e : Fin 512) :
    Host.gather gather_S4x4x512_S77x1_S4x77x512_02_1_n_n_1_1_41512 x idx (ix3 b l e)
      = x (ix3 b (row4 (idx (ix2 l 0))) e) := by
  let d := gather_S4x4x512_S77x1_S4x77x512_02_1_n_n_1_1_41512
  have hb : ∀ a : Fin 3, a ∉ d.operandBatchingDims := fun a => (List.not_mem_nil : a ∉ ([] : List (Fin 3)))
  unfold Host.gather
  congr 1
  funext a
  apply Fin.ext
  match a with
  | ⟨0, _⟩ =>
    have hk : (0 : Fin 3) ∈ d.sKept := by decide
    have hm : (0 : Fin 3) ∉ d.startIndexMap := by decide
    show d.start (ix3 b l e) idx 0 + d.batchCoord (ix3 b l e) 0 + d.offCoord (ix3 b l e) 0 = b.val
    rw [GatherDims.batchCoord_eq_zero _ _ _ (hb 0), Nat.add_zero]
    unfold GatherDims.start GatherDims.offCoord
    rw [dif_neg hm, dif_pos hk, Nat.zero_add]
    have hX : ∀ X : Fin 3, X = 0 → ((ix3 b l e : S4x77x512.Idx) X).val = b.val := fun X hX => by subst hX; rfl
    exact hX _ rfl
  | ⟨1, _⟩ =>
    have hk : (1 : Fin 3) ∉ d.sKept := by decide
    have hm : (1 : Fin 3) ∈ d.startIndexMap := by decide
    show d.start (ix3 b l e) idx 1 + d.batchCoord (ix3 b l e) 1 + d.offCoord (ix3 b l e) 1 = min (idx (ix2 l 0)).toInt.toNat 3
    rw [GatherDims.batchCoord_eq_zero _ _ _ (hb 1), GatherDims.offCoord_eq_zero _ _ _ hk, Nat.add_zero]
    unfold GatherDims.start
    rw [dif_pos hm]
    show min (idx _).toInt.toNat (4 - 1) = min (idx (ix2 l 0)).toInt.toNat 3
    congr 3
    congr 1
    funext q
    match q with
    | ⟨0, _⟩ =>
      unfold GatherDims.siIdx
      rw [dif_neg (by decide +revert)]
      unfold GatherDims.siCoord
      apply Fin.ext
      simp only [Fin.val_cast]
      have hX : ∀ X : Fin 3, X = 1 → ((ix3 b l e : S4x77x512.Idx) X).val = l.val := fun X hX => by subst hX; rfl
      exact hX _ rfl
    | ⟨1, _⟩ =>
      unfold GatherDims.siIdx
      rw [dif_pos (by decide +revert)]
      apply Fin.ext
      show List.idxOf (1 : Fin 3) d.startIndexMap = 0
      decide
  | ⟨2, _⟩ =>
    have hk : (2 : Fin 3) ∈ d.sKept := by decide
    have hm : (2 : Fin 3) ∉ d.startIndexMap := by decide
    show d.start (ix3 b l e) idx 2 + d.batchCoord (ix3 b l e) 2 + d.offCoord (ix3 b l e) 2 = e.val
    rw [GatherDims.batchCoord_eq_zero _ _ _ (hb 2), Nat.add_zero]
    unfold GatherDims.start GatherDims.offCoord
    rw [dif_neg hm, dif_pos hk, Nat.zero_add]
    have hX : ∀ X : Fin 3, X = 2 → ((ix3 b l e : S4x77x512.Idx) X).val = e.val := fun X hX => by subst hX; rfl
    exact hX _ rfl

/-- The after-name gather: result (b, c, l, e) reads the operand at (b, row, e), the row the start index of class `c` at
    position `l` read signed and clamped into [0, 3]. -/
theorem gather_after {α : Type} (x : S4x4x512.Idx → α) (idx : IVec S1000x77x1 32) (b : Fin 4) (c : Fin 1000) (l : Fin 77)
    (e : Fin 512) :
    Host.gather gather_S4x4x512_S1000x77x1_S4x1000x77x512_03_1_n_n_1_2_41512 x idx (ix4 b c l e)
      = x (ix3 b (row4 (idx (ix3 c l 0))) e) := by
  let d := gather_S4x4x512_S1000x77x1_S4x1000x77x512_03_1_n_n_1_2_41512
  have hb : ∀ a : Fin 3, a ∉ d.operandBatchingDims := fun a => (List.not_mem_nil : a ∉ ([] : List (Fin 3)))
  unfold Host.gather
  congr 1
  funext a
  apply Fin.ext
  match a with
  | ⟨0, _⟩ =>
    have hk : (0 : Fin 3) ∈ d.sKept := by decide
    have hm : (0 : Fin 3) ∉ d.startIndexMap := by decide
    show d.start (ix4 b c l e) idx 0 + d.batchCoord (ix4 b c l e) 0 + d.offCoord (ix4 b c l e) 0 = b.val
    rw [GatherDims.batchCoord_eq_zero _ _ _ (hb 0), Nat.add_zero]
    unfold GatherDims.start GatherDims.offCoord
    rw [dif_neg hm, dif_pos hk, Nat.zero_add]
    have hX : ∀ X : Fin 4, X = 0 → ((ix4 b c l e : S4x1000x77x512.Idx) X).val = b.val := fun X hX => by subst hX; rfl
    exact hX _ rfl
  | ⟨1, _⟩ =>
    have hk : (1 : Fin 3) ∉ d.sKept := by decide
    have hm : (1 : Fin 3) ∈ d.startIndexMap := by decide
    show d.start (ix4 b c l e) idx 1 + d.batchCoord (ix4 b c l e) 1 + d.offCoord (ix4 b c l e) 1 = min (idx (ix3 c l 0)).toInt.toNat 3
    rw [GatherDims.batchCoord_eq_zero _ _ _ (hb 1), GatherDims.offCoord_eq_zero _ _ _ hk, Nat.add_zero]
    unfold GatherDims.start
    rw [dif_pos hm]
    show min (idx _).toInt.toNat (4 - 1) = min (idx (ix3 c l 0)).toInt.toNat 3
    congr 3
    congr 1
    funext q
    match q with
    | ⟨0, _⟩ =>
      unfold GatherDims.siIdx
      rw [dif_neg (by decide +revert)]
      unfold GatherDims.siCoord
      apply Fin.ext
      simp only [Fin.val_cast]
      have hX : ∀ X : Fin 4, X = 1 → ((ix4 b c l e : S4x1000x77x512.Idx) X).val = c.val := fun X hX => by subst hX; rfl
      exact hX _ rfl
    | ⟨1, _⟩ =>
      unfold GatherDims.siIdx
      rw [dif_neg (by decide +revert)]
      unfold GatherDims.siCoord
      apply Fin.ext
      simp only [Fin.val_cast]
      have hX : ∀ X : Fin 4, X = 2 → ((ix4 b c l e : S4x1000x77x512.Idx) X).val = l.val := fun X hX => by subst hX; rfl
      exact hX _ rfl
    | ⟨2, _⟩ =>
      unfold GatherDims.siIdx
      rw [dif_pos (by decide +revert)]
      apply Fin.ext
      show List.idxOf (1 : Fin 3) d.startIndexMap = 0
      decide
  | ⟨2, _⟩ =>
    have hk : (2 : Fin 3) ∈ d.sKept := by decide
    have hm : (2 : Fin 3) ∉ d.startIndexMap := by decide
    show d.start (ix4 b c l e) idx 2 + d.batchCoord (ix4 b c l e) 2 + d.offCoord (ix4 b c l e) 2 = e.val
    rw [GatherDims.batchCoord_eq_zero _ _ _ (hb 2), Nat.add_zero]
    unfold GatherDims.start GatherDims.offCoord
    rw [dif_neg hm, dif_pos hk, Nat.zero_add]
    have hX : ∀ X : Fin 4, X = 3 → ((ix4 b c l e : S4x1000x77x512.Idx) X).val = e.val := fun X hX => by subst hX; rfl
    exact hX _ rfl

end Cert.ReferenceIdeal.Gathers
end
-- ==== Proof.RefValue.lean ====
/-
  The reference, read as a value. Its result is two nested selects over broadcast masks: the after-name window test of class
  c at position l chooses the gathered after-name row, else the before-name window test at position l chooses the gathered
  before-name row, else the embedding. Each mask and each gathered row is read here at an index from the stage lemmas of
  the reference's run; the window tests and the clipped rows are then the choice `Cert.Prompt.pick` (Words), so the whole
  result is `Cert.Prompt.result` of the embedding, the two shifted contexts and the name lengths.
-/
import proofs.«430693_j84713934946305_3_alg».proof.Proof.Words
import proofs.«430693_j84713934946305_3_alg».proof.Proof.RefGather
import proofs.«430693_j84713934946305_3_alg».proof.Proof.Gen.ReferenceIdeal.Read

noncomputable section

open Idealize.ShloMosaic Idealize.ShloMosaic.ValueIdx

namespace Cert.ReferenceIdeal.Stages

open Cert.ReferenceIdeal Cert.ReferenceIdeal.Gen Cert.ReferenceIdeal.Read Cert.ReferenceIdeal.Gathers Cert.Prompt

variable {F : FTy → Type} [FloatOps F]

/-! ## Positions and start words over (class, position) -/

theorem pos40 (j : S1000x77.Idx) : val_main_v40 (F := F) j = BitVec.ofNat 32 (j 1).val := by
  rw [val_main_v40_apply, val_main_v38_apply, val_main_v10_apply]
theorem pos47 (j : S1000x77.Idx) : val_main_v47 (F := F) j = BitVec.ofNat 32 (j 1).val := by
  rw [val_main_v47_apply, val_main_v43_apply, val_main_v10_apply]
theorem pos53 (j : S1000x77.Idx) : val_main_v53 (F := F) j = BitVec.ofNat 32 (j 1).val := by
  rw [val_main_v53_apply, val_main_v51_apply, val_main_v10_apply]

/-- The class's start word, 5 plus its name length. -/
theorem start37 (x8 : (⟨S1000, .i32⟩ : BufTy).Contents (Elt F)) (i : S1000.Idx) :
    val_main_v37 (F := F) x8 i = 5#32 + x8 i := by
  rw [val_main_v37_apply, val_main_v36_apply, val_main_c_6_apply]; rfl

theorem start41 (x8 : (⟨S1000, .i32⟩ : BufTy).Contents (Elt F)) (j : S1000x77.Idx) :
    val_main_v41 (F := F) x8 j = 5#32 + x8 (ix1 (j 0)) := by
  rw [val_main_v41_apply, val_main_v39_apply, start37]
  congr 2
  funext a
  match a with
  | ⟨0, _⟩ => rfl

theorem start54 (x8 : (⟨S1000, .i32⟩ : BufTy).Contents (Elt F)) (j : S1000x77.Idx) :
    val_main_v54 (F := F) x8 j = 5#32 + x8 (ix1 (j 0)) := by
  rw [val_main_v54_apply, val_main_v52_apply, start37]
  congr 2
  funext a
  match a with
  | ⟨0, _⟩ => rfl

/-- The window's end word, the start plus 4. -/
theorem end48 (x8 : (⟨S1000, .i32⟩ : BufTy).Contents (Elt F)) (j : S1000x77.Idx) :
    val_main_v48 (F := F) x8 j = IntOp.addi (5#32 + x8 (ix1 (j 0))) 4#32 := by
  rw [val_main_v48_apply, val_main_v46_apply, val_main_v45_apply, start37, val_main_v44_apply, val_main_c_7_apply]
  congr 3
  funext a
  match a with
  | ⟨0, _⟩ => rfl

/-- The after-name mask: the window test of the class's start word on the position word. -/
theorem maskA (x8 : (⟨S1000, .i32⟩ : BufTy).Contents (Elt F)) (j : S1000x77.Idx) :
    val_main_v50 (F := F) x8 j = inWindow (5#32 + x8 (ix1 (j 0))) (BitVec.ofNat 32 (j 1).val) := by
  rw [val_main_v50_apply, val_main_v42_apply, val_main_v49_apply, pos40, pos47, start41, end48]
  rfl

/-- The after-name row word: the clipped, normalized difference of the position and the start. -/
theorem rowA (x8 : (⟨S1000, .i32⟩ : BufTy).Contents (Elt F)) (j : S1000x77.Idx) :
    val_main_v61 (F := F) x8 j = rowWord (BitVec.ofNat 32 (j 1).val - (5#32 + x8 (ix1 (j 0)))) := by
  rw [val_main_v61_apply, val_main_v58_apply, val_main_v60_apply, val_main_v56_apply, val_main_call1_v4_apply,
    val_main_call1_v3_apply, val_main_c_9_apply, val_main_call1_v2_apply, val_main_call1_v1_apply,
    val_main_call1_v0_apply, val_main_c_8_apply, val_main_v55_apply, pos53, start54, val_main_v57_apply,
    val_main_c_10_apply, val_main_v59_apply, val_main_c_11_apply]
  rfl

/-! ## The same over positions alone, for the before-name context -/

theorem maskB (i : S77.Idx) : val_main_v25 (F := F) i = inWindow 1#32 (BitVec.ofNat 32 (i 0).val) := by
  rw [val_main_v25_apply, val_main_v22_apply, val_main_v24_apply, val_main_v10_apply, val_main_v21_apply,
    val_main_c_apply, val_main_v23_apply, val_main_c_0_apply]
  rfl

theorem rowB (i : S77.Idx) : val_main_v33 (F := F) i = rowWord (BitVec.ofNat 32 (i 0).val - 1#32) := by
  rw [val_main_v33_apply, val_main_v30_apply, val_main_v32_apply, val_main_v28_apply, val_main_call0_v4_apply,
    val_main_call0_v3_apply, val_main_c_3_apply, val_main_call0_v2_apply, val_main_call0_v1_apply,
    val_main_call0_v0_apply, val_main_c_2_apply, val_main_v27_apply, val_main_v10_apply, val_main_v26_apply,
    val_main_c_1_apply, val_main_v29_apply, val_main_c_4_apply, val_main_v31_apply, val_main_c_5_apply]
  rfl

/-! ## The whole result -/

/-- The reference's result is `Cert.Prompt.result` of the embedding, the shifted contexts it computes and the name lengths. -/
theorem ref_eq (x0 : (⟨S4x512, .f32⟩ : BufTy).Contents (Elt F)) (x1 : (⟨S512x32, .f32⟩ : BufTy).Contents (Elt F))
    (x2 : (⟨S32, .f32⟩ : BufTy).Contents (Elt F)) (x3 : (⟨S32x512, .f32⟩ : BufTy).Contents (Elt F))
    (x4 : (⟨S512, .f32⟩ : BufTy).Contents (Elt F)) (x5 x6 : (⟨S4x512, .f32⟩ : BufTy).Contents (Elt F))
    (x7 : (⟨S1000x77x512, .f32⟩ : BufTy).Contents (Elt F)) (x8 : (⟨S1000, .i32⟩ : BufTy).Contents (Elt F)) :
    val_main_v69 (F := F) x0 x1 x2 x3 x4 x5 x6 x7 x8
      = result x7 (val_main_v15 (F := F) x0 x1 x2 x3 x4 x5) (val_main_v20 (F := F) x0 x1 x2 x3 x4 x6) x8 := by
  funext i
  obtain ⟨b, c, l, d, rfl⟩ : ∃ (b : Fin 4) (c : Fin 1000) (l : Fin 77) (d : Fin 512), i = ix4 b c l d :=
    ⟨i 0, i 1, i 2, i 3, eq_ix4 i⟩
  have hp : (BitVec.ofNat 32 l.val).toNat < 77 := by
    have := l.isLt
    simp only [BitVec.toNat_ofNat, Nat.reducePow]
    omega
  have e65 : idx_main_v65 (idx_main_call2_v1 (ix4 b c l d)) = ix3 b l d :=
    funext fun a => match a with
      | ⟨0, _⟩ => rfl
      | ⟨1, _⟩ => rfl
      | ⟨2, _⟩ => rfl
  have e66 : idx_main_v66 (idx_main_call2_v2 (ix4 b c l d)) = ix3 c l d :=
    funext fun a => match a with
      | ⟨0, _⟩ => rfl
      | ⟨1, _⟩ => rfl
      | ⟨2, _⟩ => rfl
  rw [val_main_v69_apply, val_main_call3_v0_apply, val_main_v68_apply, maskA, val_main_v67_apply,
    val_main_call2_v0_apply, val_main_v64_apply, maskB, val_main_call2_v1_apply, val_main_v65_apply,
    val_main_call2_v2_apply, val_main_v66_apply, e65, e66]
  unfold val_main_v63 val_main_v35
  rw [gather_after, gather_before, val_main_v62_apply, rowA, val_main_v34_apply, rowB]
  show Scalar.select (inWindow (5#32 + x8 (ix1 c)) (BitVec.ofNat 32 l.val))
      (val_main_v20 (F := F) x0 x1 x2 x3 x4 x6
        (ix3 b (row4 (rowWord (BitVec.ofNat 32 l.val - (5#32 + x8 (ix1 c))))) d))
      (Scalar.select (inWindow 1#32 (BitVec.ofNat 32 l.val))
        (val_main_v15 (F := F) x0 x1 x2 x3 x4 x5 (ix3 b (row4 (rowWord (BitVec.ofNat 32 l.val - 1#32))) d))
        (x7 (ix3 c l d))) = _
  refine (select_window (5#32 + x8 (ix1 c)) (BitVec.ofNat 32 l.val) hp
    (fun k => val_main_v20 (F := F) x0 x1 x2 x3 x4 x6 (ix3 b k d)) _).trans ?_
  rw [show Scalar.select (inWindow 1#32 (BitVec.ofNat 32 l.val))
        (val_main_v15 (F := F) x0 x1 x2 x3 x4 x5 (ix3 b (row4 (rowWord (BitVec.ofNat 32 l.val - 1#32))) d))
        (x7 (ix3 c l d))
      = (if 1 ≤ l.val ∧ l.val < 5 then val_main_v15 (F := F) x0 x1 x2 x3 x4 x5 (ix3 b (beforeRow l) d)
          else x7 (ix3 c l d)) from
    (select_window 1#32 (BitVec.ofNat 32 l.val) hp
      (fun k => val_main_v15 (F := F) x0 x1 x2 x3 x4 x5 (ix3 b k d)) (x7 (ix3 c l d))).trans
      (pick_before l (fun k => val_main_v15 (F := F) x0 x1 x2 x3 x4 x5 (ix3 b k d)) (x7 (ix3 c l d))),
    BitVec.add_comm 5#32]
  rfl

end Cert.ReferenceIdeal.Stages
end
-- ==== Proof.Claims.lean ====
/-
  The two programs meet. The kernel's host prefix computes the meta-net bias and the two shifted contexts by the same host
  operations the reference uses, and copies each name length along 128 lanes; so the arrays the kernel's region finds are the
  reference's own stage values of the arguments, and lane 0 of the copied name lengths is the name lengths. The kernel's
  result array (KernelValue) and the reference's result (RefValue) are then the same function `Cert.Prompt.result` of the
  same four arrays. No arithmetic on the entries is involved: every entry of the result is one entry of one of the arrays,
  so the equality holds at every extended real and the precondition is not used.
-/
import proofs.«430693_j84713934946305_3_alg».proof.Defs
import proofs.«430693_j84713934946305_3_alg».proof.Proof.KernelValue
import proofs.«430693_j84713934946305_3_alg».proof.Proof.RefValue
import proofs.«430693_j84713934946305_3_alg».proof.Proof.Gen.Kernel.Frame
import proofs.«430693_j84713934946305_3_alg».proof.Proof.Gen.Pre_finite_inputs
import proofs.«430693_j84713934946305_3_alg».proof.Proof.Gen.KernelIdeal.Value
import proofs.«430693_j84713934946305_3_alg».proof.Proof.Gen.ReferenceIdeal.Run
import proofs.«430693_j84713934946305_3_alg».proof.Proof.Gen.ReferenceIdeal.Read
import Idealize.ShloMosaic.Lib.StableHlo.Run

noncomputable section

open Idealize.ShloMosaic Idealize.ShloMosaic.TcCoe Idealize.SL.Sem Idealize.ShloMosaic.ValueIdx

namespace Cert.KernelIdeal.Host

open Cert.KernelIdeal Cert.KernelIdeal.Gen Cert.Prompt

variable {F : FTy → Type} [FloatOps F]
variable (m : (ℓ : Loc nD τ sig) → Buf (Elt F) ℓ) (ρ : Dev nD → PrngReg)

/-- The two programs' matrix-product records name the same axes. -/
theorem dot1 : Cert.KernelIdeal.dot_S4x512_S512x32_S4x32_1_0_0_1_n_n = Cert.ReferenceIdeal.dot_S4x512_S512x32_S4x32_1_0_0_1_n_n := rfl
theorem dot2 : Cert.KernelIdeal.dot_S4x32_S32x512_S4x512_1_0_0_1_n_n = Cert.ReferenceIdeal.dot_S4x32_S32x512_S4x512_1_0_0_1_n_n := rfl

/-- The shifted before-name context the region finds is the reference's stage value of the same arguments. -/
theorem before_eq (c : Dev nD) : (V m c main_v14 : S4x4x512.Idx → Elt F .f32)
    = Cert.ReferenceIdeal.Read.val_main_v15 (F := F) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  dsimp only [V, hostOps0]
  simp only [Cert.ReferenceIdeal.Read.val_main_v15, Cert.ReferenceIdeal.Read.val_main_v13, Cert.ReferenceIdeal.Read.val_main_v14,
    Cert.ReferenceIdeal.Read.val_main_v11, Cert.ReferenceIdeal.Read.val_main_v12, Cert.ReferenceIdeal.Read.val_main_v9,
    Cert.ReferenceIdeal.Read.val_main_v6, Cert.ReferenceIdeal.Read.val_main_v8, Cert.ReferenceIdeal.Read.val_main_v7,
    Cert.ReferenceIdeal.Read.val_main_v5, Cert.ReferenceIdeal.Read.val_main_v3, Cert.ReferenceIdeal.Read.val_main_v4,
    Cert.ReferenceIdeal.Read.val_main_cst, Cert.ReferenceIdeal.Read.val_main_v0, Cert.ReferenceIdeal.Read.val_main_v2,
    Cert.ReferenceIdeal.Read.val_main_v1, ← dot1, ← dot2]
  after_results

set_option maxHeartbeats 4000000 in
/-- The shifted after-name context the region finds is the reference's stage value of the same arguments. -/
theorem after_eq (c : Dev nD) : (V m c main_v19 : S4x4x512.Idx → Elt F .f32)
    = Cert.ReferenceIdeal.Read.val_main_v20 (F := F) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg6)) := by
  dsimp only [V, hostOps0]
  simp only [Cert.ReferenceIdeal.Read.val_main_v20, Cert.ReferenceIdeal.Read.val_main_v18, Cert.ReferenceIdeal.Read.val_main_v19,
    Cert.ReferenceIdeal.Read.val_main_v16, Cert.ReferenceIdeal.Read.val_main_v17, Cert.ReferenceIdeal.Read.val_main_v9,
    Cert.ReferenceIdeal.Read.val_main_v6, Cert.ReferenceIdeal.Read.val_main_v8, Cert.ReferenceIdeal.Read.val_main_v7,
    Cert.ReferenceIdeal.Read.val_main_v5, Cert.ReferenceIdeal.Read.val_main_v3, Cert.ReferenceIdeal.Read.val_main_v4,
    Cert.ReferenceIdeal.Read.val_main_cst, Cert.ReferenceIdeal.Read.val_main_v0, Cert.ReferenceIdeal.Read.val_main_v2,
    Cert.ReferenceIdeal.Read.val_main_v1, ← dot1, ← dot2]
  after_results

/-- Lane 0 of the lane-repeated name lengths is the name lengths. -/
theorem len_eq (c : Dev nD) (q : Fin 1000) :
    (V m c main_v21 : S1000x128.Idx → BitVec 32) (ix2 q 0) = (m ((c : Thread nD τ).loc main_arg8) : S1000.Idx → BitVec 32) (ix1 q) := by
  have e : (V m c main_v21 : S1000x128.Idx → BitVec 32)
      = broadcastInDim S1000x128 ![0, 1] bcast_S1000x1_S1000x128_0_1
          (broadcastInDim S1000x1 ![0] bcast_S1000_S1000x1_0 (m ((c : Thread nD τ).loc main_arg8) : S1000.Idx → BitVec 32)) := by
    dsimp only [V, hostOps0]
    after_results
  rw [e, broadcastInDim_apply _ bcast_S1000x1_S1000x128_0_1 _ (ix2 q 0) (ix2 q 0) (fun a => match a with
      | ⟨0, _⟩ => by show q.val = if (1000 : Nat) = 1 then 0 else q.val; rw [if_neg (by decide)]
      | ⟨1, _⟩ => by show 0 = if (1 : Nat) = 1 then 0 else 0; rw [if_pos rfl]),
    broadcastInDim_apply _ bcast_S1000_S1000x1_0 _ (ix2 q 0) (ix1 q) (fun a => match a with
      | ⟨0, _⟩ => by show q.val = if (1000 : Nat) = 1 then 0 else q.val; rw [if_neg (by decide)])]

/-- The kernel's result array as `Cert.Prompt.result` of the argument arrays and the reference's two context stages. -/
theorem kres_eq (c : Dev nD) : Whole.kres m c
    = result (m ((c : Thread nD τ).loc main_arg7) : S1000x77x512.Idx → Elt F .f32)
        (Cert.ReferenceIdeal.Read.val_main_v15 (F := F) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)))
        (Cert.ReferenceIdeal.Read.val_main_v20 (F := F) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg6)))
        (m ((c : Thread nD τ).loc main_arg8) : S1000.Idx → BitVec 32) := by
  have hl : (fun q : S1000.Idx => (V m c main_v21 : S1000x128.Idx → BitVec 32) (ix2 (q 0) 0))
      = (m ((c : Thread nD τ).loc main_arg8) : S1000.Idx → BitVec 32) := by
    funext q
    rw [len_eq m c (q 0)]
    exact congrArg _ (eq_ix1 q).symm
  unfold Whole.kres
  rw [hl, before_eq, after_eq, V_main_arg7]

/-- The kernel's run, its result array named. -/
theorem run : θ_run defs (onTc (τ := τ) (main (F := F))) ⟨m, fun _ => 0, ρ⟩ fun r => ∀ c : Dev nD,
      r.2.mem ((c : Thread nD τ).loc main_v22)
        = result (m ((c : Thread nD τ).loc main_arg7) : S1000x77x512.Idx → Elt F .f32)
            (Cert.ReferenceIdeal.Read.val_main_v15 (F := F) (m ((c : Thread nD τ).loc main_arg0)) (m ((c : Thread nD τ).loc main_arg1))
              (m ((c : Thread nD τ).loc main_arg2)) (m ((c : Thread nD τ).loc main_arg3)) (m ((c : Thread nD τ).loc main_arg4))
              (m ((c : Thread nD τ).loc main_arg5)))
            (Cert.ReferenceIdeal.Read.val_main_v20 (F := F) (m ((c : Thread nD τ).loc main_arg0)) (m ((c : Thread nD τ).loc main_arg1))
              (m ((c : Thread nD τ).loc main_arg2)) (m ((c : Thread nD τ).loc main_arg3)) (m ((c : Thread nD τ).loc main_arg4))
              (m ((c : Thread nD τ).loc main_arg6)))
            (m ((c : Thread nD τ).loc main_arg8) : S1000.Idx → BitVec 32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans ((Whole.final m c).trans (kres_eq m c)), (h c).2⟩)
    (Value.run_blocks m ρ)

end Cert.KernelIdeal.Host

/-! ## The claims -/

namespace Cert.Proof.Claims

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at `Cert.Prompt.result` of arguments that agree. -/
theorem algebraic : Cert.algebraic_KernelIdeal_ReferenceIdeal := by
  intro m ρ m' ρ' _ hagree
  refine ⟨_, Cert.KernelIdeal.Host.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v69_eq, Cert.ReferenceIdeal.Stages.ref_eq, a0, a1, a2, a3, a4, a5, a6, a7, a8]

end Cert.Proof.Claims

end
-- ==== Proof.lean ====
/- The proof of `Cert.Claim` (proofs.«430693_j84713934946305_3_alg».proof.Defs).

   The kernel builds the prompt tensor [4, 1000, 77, 512]: entry (b, c, l, d) is the embedding's entry (c, l, d), except
   that positions 1 to 4 hold image b's shifted before-name rows and the four positions starting at name_len c + 5 hold
   image b's shifted after-name rows (the after-name rows win where both apply). The shifted contexts are a context row
   plus the meta-net bias of the image, computed on the host by both programs with the same operations.

   Proof/Spec.lean states the result as one selection of array entries, over any element type. Proof/KernelBlock.lean
   reads one grid point's output block off the body's stores and shows it is that selection of the point's input blocks;
   Proof/KernelValue.lean places the 200 blocks in the array. Proof/Words.lean turns the reference's signed window tests and
   clipped row indices, on 32-bit words with wrap-around, into the kernel's equality tests; Proof/RefGather.lean reads the
   reference's two gathers; Proof/RefValue.lean reads the reference's result at an index. Proof/Claims.lean identifies the
   arrays the kernel's region finds with the reference's stage values and assembles the five claims: the frames are the
   generated runs, the idealization rewrote nothing, and both results are the same selection of the same arrays. -/
import proofs.«430693_j84713934946305_3_alg».proof.Defs
import proofs.«430693_j84713934946305_3_alg».proof.Proof.Claims
import proofs.«430693_j84713934946305_3_alg».proof.Proof.Gen.Kernel
import proofs.«430693_j84713934946305_3_alg».proof.Proof.Gen.Kernel.Skeleton
import proofs.«430693_j84713934946305_3_alg».proof.Proof.Gen.Kernel.Launch
import proofs.«430693_j84713934946305_3_alg».proof.Proof.Gen.Kernel.Points
import proofs.«430693_j84713934946305_3_alg».proof.Proof.Gen.Kernel.Frame
import proofs.«430693_j84713934946305_3_alg».proof.Proof.Gen.KernelIdeal
import proofs.«430693_j84713934946305_3_alg».proof.Proof.Gen.KernelIdeal.Skeleton
import proofs.«430693_j84713934946305_3_alg».proof.Proof.Gen.KernelIdeal.Launch
import proofs.«430693_j84713934946305_3_alg».proof.Proof.Gen.KernelIdeal.Points
import proofs.«430693_j84713934946305_3_alg».proof.Proof.Gen.KernelIdeal.Frame
import proofs.«430693_j84713934946305_3_alg».proof.Proof.Gen.ReferenceIdeal
import proofs.«430693_j84713934946305_3_alg».proof.Proof.Gen.Pre_finite_inputs
import proofs.«430693_j84713934946305_3_alg».proof.Proof.Gen.KernelIdeal.Value
import proofs.«430693_j84713934946305_3_alg».proof.Proof.Gen.ReferenceIdeal.Run
import proofs.«430693_j84713934946305_3_alg».proof.Proof.Gen.ReferenceIdeal.Read
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves, Claims.algebraic⟩

end Cert.Proof

end
